-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S1x512x1024 : Shape := ⟨3, ![1, 512, 1024]⟩
abbrev S1x2048x1024 : Shape := ⟨3, ![1, 2048, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 31
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S16384x1024, .f32⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S16384x1024, .bf16⟩
  | .hbm, ⟨22, _⟩ => ⟨S16384x1024, .bf16⟩
  | .hbm, ⟨23, _⟩ => ⟨S16384x1024, .bf16⟩
  | .hbm, ⟨24, _⟩ => ⟨S8x2048x1024, .bf16⟩
  | .hbm, ⟨25, _⟩ => ⟨S8x2048x1024, .bf16⟩
  | .hbm, ⟨26, _⟩ => ⟨S8x2048x1024, .bf16⟩
  | .hbm, ⟨27, _⟩ => ⟨S1x1024, .f32⟩
  | .hbm, ⟨28, _⟩ => ⟨S8x2048x1024, .f32⟩
  | .hbm, ⟨29, _⟩ => ⟨S16384x1024, .f32⟩
  | .hbm, ⟨30, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1x2048x1024, .bf16⟩
  | .local _ .vmem, ⟨21, _⟩ => ⟨S1x2048x1024, .bf16⟩
  | .local _ .vmem, ⟨22, _⟩ => ⟨S1024x1024, .bf16⟩
  | .local _ .vmem, ⟨23, _⟩ => ⟨S1x1024, .f32⟩
  | .local _ .vmem, ⟨24, _⟩ => ⟨S1x512x1024, .f32⟩
  | .local _ .vmem, ⟨25, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S8x2048x1024_S16384x1024 : S8x2048x1024.ShapeCasts S16384x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S16384x1024_S8x2048x1024 : S16384x1024.ShapeCasts S8x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S16384x1024.size a
  hwx0_9 : ∀ i : grid0.Coords, EltTy.bits .bf16 = 32 ∨ (Rect.block (s := S16384x1024) S512x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S16384x1024.size a
  hwx0_10 : ∀ i : grid0.Coords, EltTy.bits .bf16 = 32 ∨ (Rect.block (s := S16384x1024) S512x1024.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S16384x1024.size a
  hwx0_11 : ∀ i : grid0.Coords, EltTy.bits .bf16 = 32 ∨ (Rect.block (s := S16384x1024) S512x1024.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x1024.size a
  hwx1_0 : ∀ i : grid1.Coords, EltTy.bits .bf16 = 32 ∨ (Rect.block (s := S8x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S8x2048x1024.size a
  hwx1_1 : ∀ i : grid1.Coords, EltTy.bits .bf16 = 32 ∨ (Rect.block (s := S8x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S8x2048x1024.size a
  hwx1_2 : ∀ i : grid1.Coords, EltTy.bits .bf16 = 32 ∨ (Rect.block (s := S8x2048x1024) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S8x2048x1024.size a
  hwx1_5 : ∀ i : grid1.Coords, EltTy.bits .f32 = 32 ∨ (Rect.block (s := S8x2048x1024) S1x512x1024.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10_0) S512x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_1) S512x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10_2) S512x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v11) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S8x2048x1024, .f32⟩
  | .hbm, ⟨12, _⟩ => ⟨S1x1x1024, .f32⟩
  | .hbm, ⟨13, _⟩ => ⟨S8x2048x1024, .f32⟩
  | .hbm, ⟨14, _⟩ => ⟨S8x2048x1024, .f32⟩
  | .hbm, ⟨15, _⟩ => ⟨S_, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S_, .f32⟩
  | .hbm, ⟨37, _⟩ => ⟨S8x2048, .f32⟩
  | .hbm, ⟨38, _⟩ => ⟨S8x2048, .f32⟩
  | .hbm, ⟨39, _⟩ => ⟨S8x2048x1, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S8x2048x2048, .f32⟩
  | .hbm, ⟨47, _⟩ => ⟨S8x2048x2048, .f32⟩
  | .hbm, ⟨48, _⟩ => ⟨S8x2048x1024, .f32⟩
  | .hbm, ⟨49, _⟩ => ⟨S8x2048x1024, .f32⟩
  | .hbm, ⟨50, _⟩ => ⟨S1x1x1024, .f32⟩
  | .hbm, ⟨51, _⟩ => ⟨S8x2048x1024, .f32⟩
  | .hbm, ⟨52, _⟩ => ⟨S8x2048x1024, .f32⟩
  | .hbm, ⟨53, _⟩ => ⟨S_, .f32⟩
  | .hbm, ⟨54, _⟩ => ⟨S8x2048x1024, .f32⟩
  | .hbm, ⟨55, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call1_cst : Ref sig .tc := ⟨.hbm, 53, rfl⟩
abbrev main_call1_v0 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x1024 : S_.BroadcastsInDim S8x2048x1024 (![] : Fin 0 → Fin S8x2048x1024.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Spec.lean ====
/-
  The mathematics both programs compute, row by row, on the extended reals.

  One token row `xr` (1024 features) goes through a dense layer with ReLU (`hidden`), then through a second dense layer
  with tanh (`proj`): that is a row of q, of k or of v, according to the weights. For one query row `q` and the 2048
  key rows `K` and value rows `V` of its batch, `scores` are the dot products q·K_s, `rowMax` their maximum (the fold
  of `max` from -∞), `expo` the exponentials of the scores less that maximum, `weights` those exponentials over
  their sum (the softmax), `mix` the softmax-weighted sum of the value rows, and `attnRow` the last dense layer with
  ReLU on it. `outAt` puts the pieces together for batch `b`, token `t`, feature `j`; `out` is the same as a
  function of the eleven argument arrays, index by index.

  The two array-level forms `projArr` and `attnArr` are what one launch of each kernel leaves in its output array, as a
  function of the arrays it is given: the projections over a [16384, 1024] array of rows, the attention over
  [8, 2048, 1024] arrays.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The f32 zero the ReLUs compare against, kept as its bit pattern's value. -/
abbrev zeroF : EReal := Ideal.ofBits .f32 0x00000000#32
/-- The f32 -∞ the row maximum starts from, kept as its bit pattern's value. -/
abbrev negInf : EReal := Ideal.ofBits .f32 0xFF800000#32

/-- A dense layer on one row: (v · W)_j + b_j. -/
def dense (W : Fin 1024 → Fin 1024 → EReal) (b : Fin 1024 → EReal) (v : Fin 1024 → EReal) (j : Fin 1024) : EReal :=
  (∑ k : Fin 1024, v k * W k j) + b j

/-- The first layer: dense, then ReLU. -/
def hidden (W0 : Fin 1024 → Fin 1024 → EReal) (b0 : Fin 1024 → EReal) (xr : Fin 1024 → EReal) (j : Fin 1024) : EReal :=
  max (dense W0 b0 xr j) zeroF

/-- A projection row (q, k or v): dense on the hidden row, then tanh. -/
def proj (W0 : Fin 1024 → Fin 1024 → EReal) (b0 : Fin 1024 → EReal) (Wp : Fin 1024 → Fin 1024 → EReal) (bp : Fin 1024 → EReal)
    (xr : Fin 1024 → EReal) (d : Fin 1024) : EReal :=
  Ideal.tanh (dense Wp bp (hidden W0 b0 xr) d)

/-- The attention scores of one query row against the key rows. -/
def scores (q : Fin 1024 → EReal) (K : Fin 2048 → Fin 1024 → EReal) (s : Fin 2048) : EReal :=
  ∑ d : Fin 1024, q d * K s d

/-- The maximum of a row of scores, folded from -∞. -/
def rowMax (sc : Fin 2048 → EReal) : EReal :=
  (Finset.univ : Finset (Fin 2048)).fold max negInf sc

/-- exp (score − row maximum). -/
def expo (sc : Fin 2048 → EReal) (s : Fin 2048) : EReal :=
  Ideal.exp (sc s - rowMax sc)

/-- The softmax weights of a row of scores. -/
def weights (sc : Fin 2048 → EReal) (s : Fin 2048) : EReal :=
  Ideal.div (expo sc s) (∑ s' : Fin 2048, expo sc s')

/-- The softmax-weighted sum of the value rows. -/
def mix (q : Fin 1024 → EReal) (K V : Fin 2048 → Fin 1024 → EReal) (d : Fin 1024) : EReal :=
  ∑ s : Fin 2048, weights (scores q K) s * V s d

/-- One output row: the last dense layer on the mixed row, then ReLU. -/
def attnRow (q : Fin 1024 → EReal) (K V : Fin 2048 → Fin 1024 → EReal) (W1 : Fin 1024 → Fin 1024 → EReal) (b1 : Fin 1024 → EReal)
    (j : Fin 1024) : EReal :=
  max (dense W1 b1 (mix q K V) j) zeroF

/-- The whole layer at batch `b`, token `t`, feature `j`. -/
def outAt (X : Fin 8 → Fin 2048 → Fin 1024 → EReal) (W0 : Fin 1024 → Fin 1024 → EReal) (b0 : Fin 1024 → EReal)
    (Wq : Fin 1024 → Fin 1024 → EReal) (bq : Fin 1024 → EReal) (Wk : Fin 1024 → Fin 1024 → EReal) (bk : Fin 1024 → EReal)
    (Wv : Fin 1024 → Fin 1024 → EReal) (bv : Fin 1024 → EReal) (W1 : Fin 1024 → Fin 1024 → EReal) (b1 : Fin 1024 → EReal)
    (b : Fin 8) (t : Fin 2048) (j : Fin 1024) : EReal :=
  attnRow (proj W0 b0 Wq bq (X b t)) (fun s => proj W0 b0 Wk bk (X b s)) (fun s => proj W0 b0 Wv bv (X b s)) W1 b1 j

abbrev T3 : Shape := ⟨3, ![8, 2048, 1024]⟩
abbrev R2 : Shape := ⟨2, ![16384, 1024]⟩
abbrev M2 : Shape := ⟨2, ![1024, 1024]⟩
abbrev B1 : Shape := ⟨1, ![1024]⟩
abbrev B2 : Shape := ⟨2, ![1, 1024]⟩

/-- The layer as a function of the eleven argument arrays, index by index. -/
def out (x : T3.Idx → EReal) (W0 : M2.Idx → EReal) (b0 : B1.Idx → EReal) (Wq : M2.Idx → EReal) (bq : B1.Idx → EReal)
    (Wk : M2.Idx → EReal) (bk : B1.Idx → EReal) (Wv : M2.Idx → EReal) (bv : B1.Idx → EReal) (W1 : M2.Idx → EReal) (b1 : B1.Idx → EReal) :
    T3.Idx → EReal := fun i =>
  outAt (fun b t k => x (ix3 b t k)) (fun k j => W0 (ix2 k j)) (fun j => b0 (ix1 j)) (fun k j => Wq (ix2 k j)) (fun j => bq (ix1 j))
    (fun k j => Wk (ix2 k j)) (fun j => bk (ix1 j)) (fun k j => Wv (ix2 k j)) (fun j => bv (ix1 j)) (fun k j => W1 (ix2 k j)) (fun j => b1 (ix1 j))
    (i 0) (i 1) (i 2)

/-- What the projection kernel leaves in one output array: row `i 0` of the [16384, 1024] input projected, feature `i 1`
    (the biases come as [1, 1024] arrays). -/
def projArr (a : R2.Idx → EReal) (w0 : M2.Idx → EReal) (c0 : B2.Idx → EReal) (wp : M2.Idx → EReal) (cp : B2.Idx → EReal) : R2.Idx → EReal := fun i =>
  proj (fun k j => w0 (ix2 k j)) (fun j => c0 (ix2 0 j)) (fun k j => wp (ix2 k j)) (fun j => cp (ix2 0 j)) (fun k => a (ix2 (i 0) k)) (i 1)

/-- What the attention kernel leaves in its output array: query row (`i 0`, `i 1`) against the keys and values of batch `i 0`,
    feature `i 2`. -/
def attnArr (q k v : T3.Idx → EReal) (w1 : M2.Idx → EReal) (c1 : B2.Idx → EReal) : T3.Idx → EReal := fun i =>
  attnRow (fun d => q (ix3 (i 0) (i 1) d)) (fun s d => k (ix3 (i 0) s d)) (fun s d => v (ix3 (i 0) s d))
    (fun k j => w1 (ix2 k j)) (fun j => c1 (ix2 0 j)) (i 2)

/-- From -∞ the maximum with any extended real is that extended real. -/
theorem max_negInf (y : EReal) : max negInf y = y := by
  show max (Ideal.ofBits .f32 0xFF800000#32) y = y
  simp [Ideal.ofBits, Ideal.ieee]

end Cert.Attn

end
-- ==== Proof.DenseAt.lean ====
/-
  A dense layer as the kernel body spells it — a [512, 1024] block times a [1024, 1024] matrix into a zero
  accumulator, plus a [1, 1024] bias row broadcast down the rows — read at (p, q): the sum over the 1024 contraction
  positions of row p times column q, plus the bias at q (`Cert.Attn.dense`).
-/
import proofs.«410532_j19078244729546_3_alg».proof.Proof.Gen.KernelIdeal
import proofs.«410532_j19078244729546_3_alg».proof.Proof.Spec
import Idealize.ShloMosaic.Lib.Pipeline.Value
import Idealize.ShloMosaic.Lib.ValueIdx
import Idealize.ShloMosaic.PureOps.Ideal.Laws

noncomputable section

namespace Cert.KernelIdeal.DenseAt

open Cert.KernelIdeal Cert.KernelIdeal.Facts₀ Cert.KernelIdeal.Facts Idealize.ShloMosaic Idealize.ShloMosaic.ValueIdx Cert.Attn

/-- The left operand's row coordinate is the output's row. -/
theorem lhs_dense_0 (i : S512x1024.Idx) (k : dot_S512x1024_S1024x1024_S512x1024_1_0_0_1_n_n.contr.Idx) :
    (dot_S512x1024_S1024x1024_S512x1024_1_0_0_1_n_n.lhsIdx i k 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl

/-- The left operand's column coordinate is the contraction index. -/
theorem lhs_dense_1 (i : S512x1024.Idx) (k : dot_S512x1024_S1024x1024_S512x1024_1_0_0_1_n_n.contr.Idx) :
    (dot_S512x1024_S1024x1024_S512x1024_1_0_0_1_n_n.lhsIdx i k 1).val = (k ⟨0, by decide⟩).val :=
  dot_S512x1024_S1024x1024_S512x1024_1_0_0_1_n_n.lhsIdx_val_of_single rfl i k

/-- The right operand's row coordinate is the contraction index. -/
theorem rhs_dense_0 (i : S512x1024.Idx) (k : dot_S512x1024_S1024x1024_S512x1024_1_0_0_1_n_n.contr.Idx) :
    (dot_S512x1024_S1024x1024_S512x1024_1_0_0_1_n_n.rhsIdx i k 0).val = (k ⟨0, by decide⟩).val :=
  dot_S512x1024_S1024x1024_S512x1024_1_0_0_1_n_n.rhsIdx_val_of_single rfl i k

/-- The right operand's column coordinate is the output's column. -/
theorem rhs_dense_1 (i : S512x1024.Idx) (k : dot_S512x1024_S1024x1024_S512x1024_1_0_0_1_n_n.contr.Idx) :
    (dot_S512x1024_S1024x1024_S512x1024_1_0_0_1_n_n.rhsIdx i k 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into the zero accumulator at (p, q) is the sum over the 1024 contraction positions of row p of the
    left operand times column q of the right one. -/
theorem matmul_at (l : FVec Ideal S512x1024 .bf16) (r : FVec Ideal S1024x1024 .bf16) (p : Fin 512) (q : Fin 1024) :
    (matmul dot_S512x1024_S1024x1024_S512x1024_1_0_0_1_n_n none l r (constant S512x1024 .f32 0x00000000#32) : FVec Ideal S512x1024 .f32) (ix2 p q)
      = ∑ k : Fin 1024, l (ix2 p k) * r (ix2 k q) := by
  refine (Ideal.matmul_constant_zero_apply dot_S512x1024_S1024x1024_S512x1024_1_0_0_1_n_n none l r (ix2 p q)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs_dense_0 _ _
    | ⟨1, _⟩ => exact (lhs_dense_1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs_dense_0 _ _).trans hk
    | ⟨1, _⟩ => exact rhs_dense_1 _ _)
  rw [el, er]

/-- The bias row broadcast down the 512 rows, read at (p, q), is the bias at (0, q). -/
theorem bias_at (b : FVec Ideal S1x1024 .f32) (p : Fin 512) (q : Fin 1024) :
    (broadcastTo S512x1024 b broadcasts_S1x1024_S512x1024 : FVec Ideal S512x1024 .f32) (ix2 p q) = b (ix2 0 q) := by
  refine broadcastTo_apply b broadcasts_S1x1024_S512x1024 (ix2 p q) (ix2 0 q) (fun a => ?_)
  match a with
  | ⟨0, _⟩ => rfl
  | ⟨1, _⟩ => rfl

/-- A [512, 1024] block times a [1024, 1024] matrix into a zero accumulator, plus a [1, 1024] bias broadcast down the rows,
    read at (p, q): the dense layer of row p at feature q. -/
theorem dense_at (l : FVec Ideal S512x1024 .bf16) (r : Vec Ideal S1024x1024 .bf16) (b : Vec Ideal S1x1024 .f32) (p : Fin 512) (q : Fin 1024) :
    (addf (matmul dot_S512x1024_S1024x1024_S512x1024_1_0_0_1_n_n none l (shapeCast S1024x1024 r shapeCasts_S1024x1024_S1024x1024 : FVec Ideal S1024x1024 .bf16) (constant S512x1024 .f32 0x00000000#32))
        (broadcastTo S512x1024 (shapeCast S1x1024 b shapeCasts_S1x1024_S1x1024 : FVec Ideal S1x1024 .f32) broadcasts_S1x1024_S512x1024) : FVec Ideal S512x1024 .f32) (ix2 p q)
      = dense (fun k j => r (ix2 k j)) (fun j => b (ix2 0 j)) (fun k => l (ix2 p k)) q := by
  rw [shapeCast_self, shapeCast_self]
  show (matmul dot_S512x1024_S1024x1024_S512x1024_1_0_0_1_n_n none l r (constant S512x1024 .f32 0x00000000#32) : FVec Ideal S512x1024 .f32) (ix2 p q)
      + (broadcastTo S512x1024 b broadcasts_S1x1024_S512x1024 : FVec Ideal S512x1024 .f32) (ix2 p q) = _
  rw [matmul_at, bias_at]
  rfl

end Cert.KernelIdeal.DenseAt

end
-- ==== Proof.Region0Arr.lean ====
/-
  What the projection launch leaves in its three output arrays, as functions of the arrays it is entered with.

  At grid point t (32 of them) the body loads rows 512 t … 512 t + 511 of the flattened input, the five whole weight
  and bias arrays it needs, computes the hidden rows (dense layer, ReLU) and from them a block of q, of k and of v
  (dense layer, tanh), and stores each block whole; the pipeline writes block t back to rows 512 t … of the output
  array. Row p of a block depends only on row p of the loaded input block, so what point t writes back is block t of
  ONE whole-array function (`Cert.Attn.projArr`), and the 32 blocks cover the 16384 rows.
-/
import proofs.«410532_j19078244729546_3_alg».proof.Proof.Gen.KernelIdeal.Frame
import proofs.«410532_j19078244729546_3_alg».proof.Proof.Spec
import proofs.«410532_j19078244729546_3_alg».proof.Proof.DenseAt
import Idealize.ShloMosaic.Lib.Pipeline.Value
import Idealize.ShloMosaic.Lib.ValueIdx
import Idealize.ShloMosaic.PureOps.Ideal.Laws

set_option maxRecDepth 16384

noncomputable section

namespace Cert.KernelIdeal.Reg0

open Cert.KernelIdeal Cert.KernelIdeal.Gen Cert.KernelIdeal.Facts₀ Cert.KernelIdeal.Facts Idealize.ShloMosaic Idealize.ShloMosaic.TcCoe Idealize.SL.Sem Idealize.ShloMosaic.ValueIdx Cert.Attn
open Idealize.ShloMosaic.Pipeline (Dat)

variable (V : (c : Dev nD) → (b : Ref sig .tc) → Buf (Elt Ideal) ((c : Thread nD τ).loc b))

/-! ## The payloads at an index -/

/-- The first layer's block at (p, q): the hidden row of row p of the loaded block, at feature q. -/
theorem pay2_at (v0 : Vec Ideal S512x1024 .f32) (v3 : Vec Ideal S1024x1024 .bf16) (v6 : Vec Ideal S1x1024 .f32) (p : Fin 512) (q : Fin 1024) :
    k0_pay2 v0 v3 v6 (ix2 p q) = hidden (fun k j => v3 (ix2 k j)) (fun j => v6 (ix2 0 j)) (fun k => v0 (ix2 p k)) q := by
  unfold k0_pay2
  rw [shapeCast_self v0]
  show max ((addf (matmul dot_S512x1024_S1024x1024_S512x1024_1_0_0_1_n_n none (truncf .bf16 v0 _ : FVec Ideal S512x1024 .bf16) (shapeCast S1024x1024 v3 _ : FVec Ideal S1024x1024 .bf16) (constant S512x1024 .f32 0x00000000#32))
        (broadcastTo S512x1024 (shapeCast S1x1024 v6 _ : FVec Ideal S1x1024 .f32) _) : FVec Ideal S512x1024 .f32) (ix2 p q)) zeroF = _
  rw [DenseAt.dense_at]
  rfl

/-- The query block at (p, q): the projection of row p of the loaded block with these weights, at feature q. -/
theorem pay3_at (v0 : Vec Ideal S512x1024 .f32) (v3 : Vec Ideal S1024x1024 .bf16) (v6 : Vec Ideal S1x1024 .f32) (v13 : Vec Ideal S1024x1024 .bf16) (v16 : Vec Ideal S1x1024 .f32) (p : Fin 512) (q : Fin 1024) :
    k0_pay3 v0 v3 v6 v13 v16 (ix2 p q) = proj (fun k j => v3 (ix2 k j)) (fun j => v6 (ix2 0 j)) (fun k j => v13 (ix2 k j)) (fun j => v16 (ix2 0 j)) (fun k => v0 (ix2 p k)) q := by
  unfold k0_pay3
  show Ideal.tanh ((addf (matmul dot_S512x1024_S1024x1024_S512x1024_1_0_0_1_n_n none (k0_pay2 v0 v3 v6) (shapeCast S1024x1024 v13 _ : FVec Ideal S1024x1024 .bf16) (constant S512x1024 .f32 0x00000000#32))
        (broadcastTo S512x1024 (shapeCast S1x1024 v16 _ : FVec Ideal S1x1024 .f32) _) : FVec Ideal S512x1024 .f32) (ix2 p q)) = _
  rw [DenseAt.dense_at]
  have hrow : (fun k => k0_pay2 v0 v3 v6 (ix2 p k)) = hidden (fun k j => v3 (ix2 k j)) (fun j => v6 (ix2 0 j)) (fun k => v0 (ix2 p k)) :=
    funext fun k => pay2_at v0 v3 v6 p k
  rw [hrow]
  rfl

/-- The key block at (p, q): the projection of row p of the loaded block with these weights, at feature q. -/
theorem pay4_at (v0 : Vec Ideal S512x1024 .f32) (v3 : Vec Ideal S1024x1024 .bf16) (v6 : Vec Ideal S1x1024 .f32) (v23 : Vec Ideal S1024x1024 .bf16) (v26 : Vec Ideal S1x1024 .f32) (p : Fin 512) (q : Fin 1024) :
    k0_pay4 v0 v3 v6 v23 v26 (ix2 p q) = proj (fun k j => v3 (ix2 k j)) (fun j => v6 (ix2 0 j)) (fun k j => v23 (ix2 k j)) (fun j => v26 (ix2 0 j)) (fun k => v0 (ix2 p k)) q := by
  unfold k0_pay4
  show Ideal.tanh ((addf (matmul dot_S512x1024_S1024x1024_S512x1024_1_0_0_1_n_n none (k0_pay2 v0 v3 v6) (shapeCast S1024x1024 v23 _ : FVec Ideal S1024x1024 .bf16) (constant S512x1024 .f32 0x00000000#32))
        (broadcastTo S512x1024 (shapeCast S1x1024 v26 _ : FVec Ideal S1x1024 .f32) _) : FVec Ideal S512x1024 .f32) (ix2 p q)) = _
  rw [DenseAt.dense_at]
  have hrow : (fun k => k0_pay2 v0 v3 v6 (ix2 p k)) = hidden (fun k j => v3 (ix2 k j)) (fun j => v6 (ix2 0 j)) (fun k => v0 (ix2 p k)) :=
    funext fun k => pay2_at v0 v3 v6 p k
  rw [hrow]
  rfl

/-- The value block at (p, q): the projection of row p of the loaded block with these weights, at feature q. -/
theorem pay1_at (v0 : Vec Ideal S512x1024 .f32) (v3 : Vec Ideal S1024x1024 .bf16) (v6 : Vec Ideal S1x1024 .f32) (v33 : Vec Ideal S1024x1024 .bf16) (v36 : Vec Ideal S1x1024 .f32) (p : Fin 512) (q : Fin 1024) :
    k0_pay1 (k0_pay2 v0 v3 v6) v33 v36 (ix2 p q) = proj (fun k j => v3 (ix2 k j)) (fun j => v6 (ix2 0 j)) (fun k j => v33 (ix2 k j)) (fun j => v36 (ix2 0 j)) (fun k => v0 (ix2 p k)) q := by
  unfold k0_pay1
  show Ideal.tanh ((addf (matmul dot_S512x1024_S1024x1024_S512x1024_1_0_0_1_n_n none (k0_pay2 v0 v3 v6) (shapeCast S1024x1024 v33 _ : FVec Ideal S1024x1024 .bf16) (constant S512x1024 .f32 0x00000000#32))
        (broadcastTo S512x1024 (shapeCast S1x1024 v36 _ : FVec Ideal S1x1024 .f32) _) : FVec Ideal S512x1024 .f32) (ix2 p q)) = _
  rw [DenseAt.dense_at]
  have hrow : (fun k => k0_pay2 v0 v3 v6 (ix2 p k)) = hidden (fun k j => v3 (ix2 k j)) (fun j => v6 (ix2 0 j)) (fun k => v0 (ix2 p k)) :=
    funext fun k => pay2_at v0 v3 v6 p k
  rw [hrow]
  rfl

/-! ## Where each window's block sits in its array -/

theorem hz : (![0, 0] : Fin 2 → Nat) = fun _ => 0 := funext fun a => by fin_cases a <;> rfl

/-- The printed index maps, decided once over the 32 grid points: the row blocks (windows 0, 9, 10, 11) are at block
    index (t, 0), the weights and biases (windows 1 to 8) at (0, 0). -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

theorem N_eq : cfg0.N = 32 := by decide +kernel

/-- A weight window's block is its whole array, at every point. -/
theorem iblk0_1_eq (c : Dev nD) (t : Fin cfg0.N) (y : S1024x1024.Idx) :
    (iblk0 (F := Ideal) V c 1 t : Vec Ideal S1024x1024 .bf16) y = (V c main_v1 : S1024x1024.Idx → EReal) y := by
  obtain ⟨-, ⟨e0, e1⟩, -⟩ := idx_facts t
  unfold iblk0
  rw [View.read_apply]
  show (V c main_v1 : S1024x1024.Idx → EReal) _ = _
  congr 1
  funext a; apply Fin.ext
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- A bias window's block is its whole array, at every point. -/
theorem iblk0_2_eq (c : Dev nD) (t : Fin cfg0.N) (y : S1x1024.Idx) :
    (iblk0 (F := Ideal) V c 2 t : Vec Ideal S1x1024 .f32) y = (V c main_v6 : S1x1024.Idx → EReal) y := by
  obtain ⟨-, -, ⟨e0, e1⟩, -⟩ := idx_facts t
  unfold iblk0
  rw [View.read_apply]
  show (V c main_v6 : S1x1024.Idx → EReal) _ = _
  congr 1
  funext a; apply Fin.ext
  match a with
  | ⟨0, _⟩ => show win0_2.index t (0 : Fin 2) * 1 + 1 * (y 0).val = (y 0).val; omega
  | ⟨1, _⟩ => show win0_2.index t (1 : Fin 2) * 1024 + 1 * (y 1).val = (y 1).val; omega

/-- A weight window's block is its whole array, at every point. -/
theorem iblk0_3_eq (c : Dev nD) (t : Fin cfg0.N) (y : S1024x1024.Idx) :
    (iblk0 (F := Ideal) V c 3 t : Vec Ideal S1024x1024 .bf16) y = (V c main_v2 : S1024x1024.Idx → EReal) y := by
  obtain ⟨-, -, -, ⟨e0, e1⟩, -⟩ := idx_facts t
  unfold iblk0
  rw [View.read_apply]
  show (V c main_v2 : S1024x1024.Idx → EReal) _ = _
  congr 1
  funext a; apply Fin.ext
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- A bias window's block is its whole array, at every point. -/
theorem iblk0_4_eq (c : Dev nD) (t : Fin cfg0.N) (y : S1x1024.Idx) :
    (iblk0 (F := Ideal) V c 4 t : Vec Ideal S1x1024 .f32) y = (V c main_v7 : S1x1024.Idx → EReal) y := by
  obtain ⟨-, -, -, -, ⟨e0, e1⟩, -⟩ := idx_facts t
  unfold iblk0
  rw [View.read_apply]
  show (V c main_v7 : S1x1024.Idx → EReal) _ = _
  congr 1
  funext a; apply Fin.ext
  match a with
  | ⟨0, _⟩ => show win0_4.index t (0 : Fin 2) * 1 + 1 * (y 0).val = (y 0).val; omega
  | ⟨1, _⟩ => show win0_4.index t (1 : Fin 2) * 1024 + 1 * (y 1).val = (y 1).val; omega

/-- A weight window's block is its whole array, at every point. -/
theorem iblk0_5_eq (c : Dev nD) (t : Fin cfg0.N) (y : S1024x1024.Idx) :
    (iblk0 (F := Ideal) V c 5 t : Vec Ideal S1024x1024 .bf16) y = (V c main_v3 : S1024x1024.Idx → EReal) y := by
  obtain ⟨-, -, -, -, -, ⟨e0, e1⟩, -⟩ := idx_facts t
  unfold iblk0
  rw [View.read_apply]
  show (V c main_v3 : S1024x1024.Idx → EReal) _ = _
  congr 1
  funext a; apply Fin.ext
  match a with
  | ⟨0, _⟩ => show win0_5.index t (0 : Fin 2) * 1024 + 1 * (y 0).val = (y 0).val; omega
  | ⟨1, _⟩ => show win0_5.index t (1 : Fin 2) * 1024 + 1 * (y 1).val = (y 1).val; omega

/-- A bias window's block is its whole array, at every point. -/
theorem iblk0_6_eq (c : Dev nD) (t : Fin cfg0.N) (y : S1x1024.Idx) :
    (iblk0 (F := Ideal) V c 6 t : Vec Ideal S1x1024 .f32) y = (V c main_v8 : S1x1024.Idx → EReal) y := by
  obtain ⟨-, -, -, -, -, -, ⟨e0, e1⟩, -⟩ := idx_facts t
  unfold iblk0
  rw [View.read_apply]
  show (V c main_v8 : S1x1024.Idx → EReal) _ = _
  congr 1
  funext a; apply Fin.ext
  match a with
  | ⟨0, _⟩ => show win0_6.index t (0 : Fin 2) * 1 + 1 * (y 0).val = (y 0).val; omega
  | ⟨1, _⟩ => show win0_6.index t (1 : Fin 2) * 1024 + 1 * (y 1).val = (y 1).val; omega

/-- A weight window's block is its whole array, at every point. -/
theorem iblk0_7_eq (c : Dev nD) (t : Fin cfg0.N) (y : S1024x1024.Idx) :
    (iblk0 (F := Ideal) V c 7 t : Vec Ideal S1024x1024 .bf16) y = (V c main_v4 : S1024x1024.Idx → EReal) y := by
  obtain ⟨-, -, -, -, -, -, -, ⟨e0, e1⟩, -⟩ := idx_facts t
  unfold iblk0
  rw [View.read_apply]
  show (V c main_v4 : S1024x1024.Idx → EReal) _ = _
  congr 1
  funext a; apply Fin.ext
  match a with
  | ⟨0, _⟩ => show win0_7.index t (0 : Fin 2) * 1024 + 1 * (y 0).val = (y 0).val; omega
  | ⟨1, _⟩ => show win0_7.index t (1 : Fin 2) * 1024 + 1 * (y 1).val = (y 1).val; omega

/-- A bias window's block is its whole array, at every point. -/
theorem iblk0_8_eq (c : Dev nD) (t : Fin cfg0.N) (y : S1x1024.Idx) :
    (iblk0 (F := Ideal) V c 8 t : Vec Ideal S1x1024 .f32) y = (V c main_v9 : S1x1024.Idx → EReal) y := by
  obtain ⟨-, -, -, -, -, -, -, -, ⟨e0, e1⟩, -⟩ := idx_facts t
  unfold iblk0
  rw [View.read_apply]
  show (V c main_v9 : S1x1024.Idx → EReal) _ = _
  congr 1
  funext a; apply Fin.ext
  match a with
  | ⟨0, _⟩ => show win0_8.index t (0 : Fin 2) * 1 + 1 * (y 0).val = (y 0).val; omega
  | ⟨1, _⟩ => show win0_8.index t (1 : Fin 2) * 1024 + 1 * (y 1).val = (y 1).val; omega

/-- The row window's block at point t is rows 512 t … 512 t + 511 of the array. -/
theorem iblk0_0_eq (c : Dev nD) (t : Fin cfg0.N) (p : Fin 512) (k : Fin 1024) (r : Fin 16384) (hr : r.val = t.val * 512 + p.val) :
    (iblk0 (F := Ideal) V c 0 t : Vec Ideal S512x1024 .f32) (ix2 p k) = (V c main_v0 : S16384x1024.Idx → EReal) (ix2 r k) := by
  obtain ⟨⟨e0, e1⟩, -⟩ := idx_facts t
  unfold iblk0
  rw [View.read_apply]
  show (V c main_v0 : S16384x1024.Idx → EReal) _ = _
  congr 1
  funext a; apply Fin.ext
  match a with
  | ⟨0, _⟩ => show win0_0.index t (0 : Fin 2) * 512 + 1 * p.val = r.val; omega
  | ⟨1, _⟩ => show win0_0.index t (1 : Fin 2) * 1024 + 1 * k.val = k.val; omega

/-! ## What each point writes back -/

/-- The projection depends on its weights, biases and row only through their values. -/
theorem proj_congr {W0 W0' : Fin 1024 → Fin 1024 → EReal} {b0 b0' : Fin 1024 → EReal} {Wp Wp' : Fin 1024 → Fin 1024 → EReal} {bp bp' : Fin 1024 → EReal}
    {x x' : Fin 1024 → EReal} (q : Fin 1024) (h1 : ∀ k j, W0 k j = W0' k j) (h2 : ∀ j, b0 j = b0' j) (h3 : ∀ k j, Wp k j = Wp' k j) (h4 : ∀ j, bp j = bp' j)
    (h5 : ∀ k, x k = x' k) : proj W0 b0 Wp bp x q = proj W0' b0' Wp' bp' x' q := by
  obtain rfl : W0 = W0' := funext fun k => funext fun j => h1 k j
  obtain rfl : b0 = b0' := funext h2
  obtain rfl : Wp = Wp' := funext fun k => funext fun j => h3 k j
  obtain rfl : bp = bp' := funext h4
  obtain rfl : x = x' := funext h5
  rfl

/-- The projected array at an index whose coordinates are r and q. -/
theorem projArr_at (a : R2.Idx → EReal) (w0 : M2.Idx → EReal) (c0 : B2.Idx → EReal) (wp : M2.Idx → EReal) (cp : B2.Idx → EReal) (i : R2.Idx)
    (r : Fin 16384) (q : Fin 1024) (h0 : (i 0).val = r.val) (h1 : (i 1).val = q.val) :
    projArr a w0 c0 wp cp i = proj (fun k j => w0 (ix2 k j)) (fun j => c0 (ix2 0 j)) (fun k j => wp (ix2 k j)) (fun j => cp (ix2 0 j)) (fun k => a (ix2 r k)) q := by
  have hi : i = ix2 r q := funext fun a => Fin.ext (by
    match a with
    | ⟨0, _⟩ => exact h0
    | ⟨1, _⟩ => exact h1)
  subst hi
  rfl

/-- Point t writes back block t of the projected array. -/
theorem flushed9_eq (c : Dev nD) (t : Fin cfg0.N) :
    (dat0 (F := Ideal) V c).flushed 9 t = ((cfg0.win 9).blk t).view.read (Elt Ideal) (projArr (V c main_v0) (V c main_v1) (V c main_v6) (V c main_v2) (V c main_v7)) := by
  show (cfg0.win 9).cut (grid0.coords t) ((dat0 (F := Ideal) V c).after 9 t) = _
  rw [after0_9]
  unfold out0_9
  rw [View.canon_unit_zero hz]
  simp only [View.ld_unit_zero (S := S512x1024) hz, View.ld_unit_zero (S := S1024x1024) hz, View.ld_unit_zero (S := S1x1024) hz]
  funext y
  obtain ⟨p, q, rfl⟩ : ∃ (p : Fin 512) (q : Fin 1024), y = ix2 p q := ⟨y 0, y 1, eq_ix2 y⟩
  refine (pay3_at _ _ _ _ _ p q).trans ?_
  rw [View.read_apply]
  obtain ⟨-, -, -, -, -, -, -, -, -, ⟨e0, e1⟩, -⟩ := idx_facts t
  have ht : t.val < 32 := lt_of_lt_of_eq t.isLt N_eq
  refine Eq.trans ?_ (projArr_at _ _ _ _ _ _ ⟨t.val * 512 + p.val, by have := p.isLt; omega⟩ q ?_ ?_).symm
  · exact proj_congr q (fun k j => iblk0_1_eq V c t _) (fun j => iblk0_2_eq V c t _) (fun k j => iblk0_3_eq V c t _) (fun j => iblk0_4_eq V c t _)
      (fun k => iblk0_0_eq V c t p k _ rfl)
  · show win0_9.index t (0 : Fin 2) * 512 + 1 * p.val = t.val * 512 + p.val; omega
  · show win0_9.index t (1 : Fin 2) * 1024 + 1 * q.val = q.val; omega

/-- Point t writes back block t of the projected array. -/
theorem flushed10_eq (c : Dev nD) (t : Fin cfg0.N) :
    (dat0 (F := Ideal) V c).flushed 10 t = ((cfg0.win 10).blk t).view.read (Elt Ideal) (projArr (V c main_v0) (V c main_v1) (V c main_v6) (V c main_v3) (V c main_v8)) := by
  show (cfg0.win 10).cut (grid0.coords t) ((dat0 (F := Ideal) V c).after 10 t) = _
  rw [after0_10]
  unfold out0_10
  rw [View.canon_unit_zero hz]
  simp only [View.ld_unit_zero (S := S512x1024) hz, View.ld_unit_zero (S := S1024x1024) hz, View.ld_unit_zero (S := S1x1024) hz]
  funext y
  obtain ⟨p, q, rfl⟩ : ∃ (p : Fin 512) (q : Fin 1024), y = ix2 p q := ⟨y 0, y 1, eq_ix2 y⟩
  refine (pay4_at _ _ _ _ _ p q).trans ?_
  rw [View.read_apply]
  obtain ⟨-, -, -, -, -, -, -, -, -, -, ⟨e0, e1⟩, -⟩ := idx_facts t
  have ht : t.val < 32 := lt_of_lt_of_eq t.isLt N_eq
  refine Eq.trans ?_ (projArr_at _ _ _ _ _ _ ⟨t.val * 512 + p.val, by have := p.isLt; omega⟩ q ?_ ?_).symm
  · exact proj_congr q (fun k j => iblk0_1_eq V c t _) (fun j => iblk0_2_eq V c t _) (fun k j => iblk0_5_eq V c t _) (fun j => iblk0_6_eq V c t _)
      (fun k => iblk0_0_eq V c t p k _ rfl)
  · show win0_10.index t (0 : Fin 2) * 512 + 1 * p.val = t.val * 512 + p.val; omega
  · show win0_10.index t (1 : Fin 2) * 1024 + 1 * q.val = q.val; omega

/-- Point t writes back block t of the projected array. -/
theorem flushed11_eq (c : Dev nD) (t : Fin cfg0.N) :
    (dat0 (F := Ideal) V c).flushed 11 t = ((cfg0.win 11).blk t).view.read (Elt Ideal) (projArr (V c main_v0) (V c main_v1) (V c main_v6) (V c main_v4) (V c main_v9)) := by
  show (cfg0.win 11).cut (grid0.coords t) ((dat0 (F := Ideal) V c).after 11 t) = _
  rw [after0_11]
  unfold out0_11
  rw [View.canon_unit_zero hz]
  simp only [View.ld_unit_zero (S := S512x1024) hz, View.ld_unit_zero (S := S1024x1024) hz, View.ld_unit_zero (S := S1x1024) hz]
  funext y
  obtain ⟨p, q, rfl⟩ : ∃ (p : Fin 512) (q : Fin 1024), y = ix2 p q := ⟨y 0, y 1, eq_ix2 y⟩
  refine (pay1_at _ _ _ _ _ p q).trans ?_
  rw [View.read_apply]
  obtain ⟨-, -, -, -, -, -, -, -, -, -, -, ⟨e0, e1⟩⟩ := idx_facts t
  have ht : t.val < 32 := lt_of_lt_of_eq t.isLt N_eq
  refine Eq.trans ?_ (projArr_at _ _ _ _ _ _ ⟨t.val * 512 + p.val, by have := p.isLt; omega⟩ q ?_ ?_).symm
  · exact proj_congr q (fun k j => iblk0_1_eq V c t _) (fun j => iblk0_2_eq V c t _) (fun k j => iblk0_7_eq V c t _) (fun j => iblk0_8_eq V c t _)
      (fun k => iblk0_0_eq V c t p k _ rfl)
  · show win0_11.index t (0 : Fin 2) * 512 + 1 * p.val = t.val * 512 + p.val; omega
  · show win0_11.index t (1 : Fin 2) * 1024 + 1 * q.val = q.val; omega

/-! ## The 32 row blocks cover the array -/

/-- An index of the array is in point t's block iff each coordinate is in the block's range on its axis. -/
theorem mem_blk9 (t : Fin cfg0.N) (i : S16384x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v10_0).slice (win0_9.rect t)).set ↔ _
  rw [View.set_slice_whole, Rect.mem_set_unit]
  exact Iff.rfl

/-- Row r of the array is in the block of point r / 512. -/
theorem cover9 (i : S16384x1024.Idx) : ∃ t : Fin cfg0.N, (cfg0.win 9).flush t = true ∧ i ∈ ((cfg0.win 9).blk t).view.set := by
  have hi0 : (i 0).val < 16384 := (i 0).isLt
  have hi1 : (i 1).val < 1024 := (i 1).isLt
  obtain ⟨t, ht⟩ : ∃ t : Fin cfg0.N, t.val = (i 0).val / 512 := ⟨⟨(i 0).val / 512, by rw [N_eq]; omega⟩, rfl⟩
  obtain ⟨-, -, -, -, -, -, -, -, -, ⟨e0, e1⟩, -⟩ := idx_facts t
  refine ⟨t, flush0_9 t, ?_⟩
  rw [mem_blk9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 1024 ≤ (i 1).val ∧ (i 1).val < win0_9.index t (1 : Fin 2) * 1024 + 1024; omega

/-- An index of the array is in point t's block iff each coordinate is in the block's range on its axis. -/
theorem mem_blk10 (t : Fin cfg0.N) (i : S16384x1024.Idx) :
    i ∈ ((cfg0.win 10).blk t).view.set ↔ ∀ a : Fin 2, win0_10.index t a * S512x1024.size a ≤ (i a).val ∧ (i a).val < win0_10.index t a * S512x1024.size a + S512x1024.size a := by
  show i ∈ ((View.whole main_v10_1).slice (win0_10.rect t)).set ↔ _
  rw [View.set_slice_whole, Rect.mem_set_unit]
  exact Iff.rfl

/-- Row r of the array is in the block of point r / 512. -/
theorem cover10 (i : S16384x1024.Idx) : ∃ t : Fin cfg0.N, (cfg0.win 10).flush t = true ∧ i ∈ ((cfg0.win 10).blk t).view.set := by
  have hi0 : (i 0).val < 16384 := (i 0).isLt
  have hi1 : (i 1).val < 1024 := (i 1).isLt
  obtain ⟨t, ht⟩ : ∃ t : Fin cfg0.N, t.val = (i 0).val / 512 := ⟨⟨(i 0).val / 512, by rw [N_eq]; omega⟩, rfl⟩
  obtain ⟨-, -, -, -, -, -, -, -, -, -, ⟨e0, e1⟩, -⟩ := idx_facts t
  refine ⟨t, flush0_10 t, ?_⟩
  rw [mem_blk10]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 1024 ≤ (i 1).val ∧ (i 1).val < win0_10.index t (1 : Fin 2) * 1024 + 1024; omega

/-- An index of the array is in point t's block iff each coordinate is in the block's range on its axis. -/
theorem mem_blk11 (t : Fin cfg0.N) (i : S16384x1024.Idx) :
    i ∈ ((cfg0.win 11).blk t).view.set ↔ ∀ a : Fin 2, win0_11.index t a * S512x1024.size a ≤ (i a).val ∧ (i a).val < win0_11.index t a * S512x1024.size a + S512x1024.size a := by
  show i ∈ ((View.whole main_v10_2).slice (win0_11.rect t)).set ↔ _
  rw [View.set_slice_whole, Rect.mem_set_unit]
  exact Iff.rfl

/-- Row r of the array is in the block of point r / 512. -/
theorem cover11 (i : S16384x1024.Idx) : ∃ t : Fin cfg0.N, (cfg0.win 11).flush t = true ∧ i ∈ ((cfg0.win 11).blk t).view.set := by
  have hi0 : (i 0).val < 16384 := (i 0).isLt
  have hi1 : (i 1).val < 1024 := (i 1).isLt
  obtain ⟨t, ht⟩ : ∃ t : Fin cfg0.N, t.val = (i 0).val / 512 := ⟨⟨(i 0).val / 512, by rw [N_eq]; omega⟩, rfl⟩
  obtain ⟨-, -, -, -, -, -, -, -, -, -, -, ⟨e0, e1⟩⟩ := idx_facts t
  refine ⟨t, flush0_11 t, ?_⟩
  rw [mem_blk11]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 1024 ≤ (i 1).val ∧ (i 1).val < win0_11.index t (1 : Fin 2) * 1024 + 1024; omega

theorem arr_q (c : Dev nD) :
    (dat0 (F := Ideal) V c).arrAt 9 cfg0.N = projArr (V c main_v0) (V c main_v1) (V c main_v6) (V c main_v2) (V c main_v7) :=
  (dat0 (F := Ideal) V c).arrAt_eq_of_cover 9 (projArr (V c main_v0) (V c main_v1) (V c main_v6) (V c main_v2) (V c main_v7))
    (fun t _ => flushed9_eq V c t) cover9

theorem arr_k (c : Dev nD) :
    (dat0 (F := Ideal) V c).arrAt 10 cfg0.N = projArr (V c main_v0) (V c main_v1) (V c main_v6) (V c main_v3) (V c main_v8) :=
  (dat0 (F := Ideal) V c).arrAt_eq_of_cover 10 (projArr (V c main_v0) (V c main_v1) (V c main_v6) (V c main_v3) (V c main_v8))
    (fun t _ => flushed10_eq V c t) cover10

theorem arr_v (c : Dev nD) :
    (dat0 (F := Ideal) V c).arrAt 11 cfg0.N = projArr (V c main_v0) (V c main_v1) (V c main_v6) (V c main_v4) (V c main_v9) :=
  (dat0 (F := Ideal) V c).arrAt_eq_of_cover 11 (projArr (V c main_v0) (V c main_v1) (V c main_v6) (V c main_v4) (V c main_v9))
    (fun t _ => flushed11_eq V c t) cover11

end Cert.KernelIdeal.Reg0

end
-- ==== Proof.Region1Arr.lean ====
import proofs.«410532_j19078244729546_3_alg».proof.Proof.Gen.KernelIdeal.Frame
import proofs.«410532_j19078244729546_3_alg».proof.Proof.Spec
import proofs.«410532_j19078244729546_3_alg».proof.Proof.DenseAt
import Idealize.ShloMosaic.Lib.Pipeline.Value
import Idealize.ShloMosaic.Lib.ValueIdx
import Idealize.ShloMosaic.PureOps.Ideal.Laws

set_option maxRecDepth 16384

noncomputable section

namespace Cert.KernelIdeal.Reg1

open Cert.KernelIdeal Cert.KernelIdeal.Gen Cert.KernelIdeal.Facts₀ Cert.KernelIdeal.Facts Idealize.ShloMosaic Idealize.ShloMosaic.TcCoe Idealize.SL.Sem Idealize.ShloMosaic.ValueIdx Cert.Attn
open Idealize.ShloMosaic.Pipeline (Dat)

variable (V : (c : Dev nD) → (b : Ref sig .tc) → Buf (Elt Ideal) ((c : Thread nD τ).loc b))

/-! # The attention call's output array

The body's payload is read one operation at a time at explicit coordinates (the two unit-axis casts, the product q·kᵀ,
the row maximum and the row sum with their keepdims forms, the softmax quotient, the weighted sum of the value rows,
the last dense layer with its ReLU), which gives one row of `attnRow` per row of the block. Each grid point then writes
back the block of `attnArr` its output rectangle names, the 32 blocks cover the [8, 2048, 1024] array, and so the
array ends holding `attnArr` of the arrays the call is given. -/

/-! ## The body's payload, one operation at a time, at explicit coordinates -/

/-- A [1, 512, 1024] block viewed as [512, 1024] reads (0, p, d) at (p, d). -/
theorem drop512_at (v : Vec Ideal S1x512x1024 .bf16) (h : S1x512x1024.ShapeCasts S512x1024) (p : Fin 512) (d : Fin 1024) :
    (shapeCast S512x1024 v h : FVec Ideal S512x1024 .bf16) (ix2 p d) = v (ix3 0 p d) := by
  refine shapeCast_apply v h (ix2 p d) (ix3 0 p d) ?_
  rw [Shape.rowMajor_val_three, Shape.rowMajor_val_two]
  show ((0 * 512 + p.val) * 1024 + d.val) = p.val * 1024 + d.val
  omega

/-- A [1, 2048, 1024] block viewed as [2048, 1024] reads (0, s, d) at (s, d). -/
theorem drop2048_at (v : Vec Ideal S1x2048x1024 .bf16) (h : S1x2048x1024.ShapeCasts S2048x1024) (s : Fin 2048) (d : Fin 1024) :
    (shapeCast S2048x1024 v h : FVec Ideal S2048x1024 .bf16) (ix2 s d) = v (ix3 0 s d) := by
  refine shapeCast_apply v h (ix2 s d) (ix3 0 s d) ?_
  rw [Shape.rowMajor_val_three, Shape.rowMajor_val_two]
  show ((0 * 2048 + s.val) * 1024 + d.val) = s.val * 1024 + d.val
  omega

/-! ### The scores: q·kᵀ contracts axis 1 of both operands -/

theorem lhs_qk_0 (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem lhs_qk_1 (i : S512x2048.Idx) (q : dot_S512x1024_S2048x1024_S512x2048_1_1_0_0_n_n.contr.Idx) :
    (dot_S512x1024_S2048x1024_S512x2048_1_1_0_0_n_n.lhsIdx i q 1).val = (q ⟨0, by decide⟩).val :=
  dot_S512x1024_S2048x1024_S512x2048_1_1_0_0_n_n.lhsIdx_val_of_single rfl i q
theorem rhs_qk_0 (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem rhs_qk_1 (i : S512x2048.Idx) (q : dot_S512x1024_S2048x1024_S512x2048_1_1_0_0_n_n.contr.Idx) :
    (dot_S512x1024_S2048x1024_S512x2048_1_1_0_0_n_n.rhsIdx i q 1).val = (q ⟨0, by decide⟩).val :=
  dot_S512x1024_S2048x1024_S512x2048_1_1_0_0_n_n.rhsIdx_val_of_single rfl i q

/-- q·kᵀ into the zero accumulator at (p, s): the dot product of row p of the left operand with row s of the right. -/
theorem qk_at (l : FVec Ideal S512x1024 .bf16) (r : FVec Ideal S2048x1024 .bf16) (p : Fin 512) (s : Fin 2048) :
    (matmul dot_S512x1024_S2048x1024_S512x2048_1_1_0_0_n_n none l r (constant S512x2048 .f32 0x00000000#32) : FVec Ideal S512x2048 .f32) (ix2 p s)
      = ∑ d : Fin 1024, l (ix2 p d) * r (ix2 s d) := by
  refine (Ideal.matmul_constant_zero_apply dot_S512x1024_S2048x1024_S512x2048_1_1_0_0_n_n none l r (ix2 p s)).trans ?_
  rw [← Equiv.sum_comp (ValueIdx.contrEquiv1 dot_S512x1024_S2048x1024_S512x2048_1_1_0_0_n_n 1024 rfl rfl).symm]
  refine Finset.sum_congr rfl fun k _ => ?_
  have hk := ValueIdx.contrEquiv1_symm_val dot_S512x1024_S2048x1024_S512x2048_1_1_0_0_n_n 1024 rfl rfl k
  have el : dot_S512x1024_S2048x1024_S512x2048_1_1_0_0_n_n.lhsIdx (ix2 p s) ((ValueIdx.contrEquiv1 dot_S512x1024_S2048x1024_S512x2048_1_1_0_0_n_n 1024 rfl rfl).symm k) = ix2 p k := funext fun a => Fin.ext (by
    match a with
    | ⟨0, _⟩ => exact lhs_qk_0 _ _
    | ⟨1, _⟩ => exact (lhs_qk_1 _ _).trans hk)
  have er : dot_S512x1024_S2048x1024_S512x2048_1_1_0_0_n_n.rhsIdx (ix2 p s) ((ValueIdx.contrEquiv1 dot_S512x1024_S2048x1024_S512x2048_1_1_0_0_n_n 1024 rfl rfl).symm k) = ix2 s k := funext fun a => Fin.ext (by
    match a with
    | ⟨0, _⟩ => exact rhs_qk_0 _ _
    | ⟨1, _⟩ => exact (rhs_qk_1 _ _).trans hk)
  rw [el, er]

/-! ### The row maximum, the keepdims forms, the row sum -/

/-- The index a reduction over axis 1 inserts over row p is (p, k). -/
theorem lift_row (h : S512x2048.Reduces [1] S512) (p : Fin 512) (k : Fin 2048) :
    h.lift (ix1 p) k = ix2 p k := by
  funext a; apply Fin.ext
  match a with
  | ⟨0, _⟩ => rfl
  | ⟨1, _⟩ => rfl

/-- The maximum over axis 1 from -∞, at row p: the fold of max over that row. -/
theorem rowmax_at (v : FVec Ideal S512x2048 .f32) (h : S512x2048.Reduces [1] S512) (hφ : FKind.Formats .f32)
    (hacc : (0xFF800000#32 : BitVec 32) = FKind.maximumf.neutral .f32 hφ) (p : Fin 512) :
    multiReduction (F := Ideal) .maximumf [1] S512 v 0xFF800000#32 h hφ hacc (ix1 p) = rowMax (fun s => v (ix2 p s)) := by
  refine (Ideal.multiReduction_maximumf_single v _ h hφ hacc (ix1 p)).trans ?_
  have e : (v ∘ h.lift (ix1 p)) = fun s : Fin 2048 => v (ix2 p s) := funext fun k => congrArg v (lift_row h p k)
  rw [e]
  rfl

/-- The sum over axis 1 from zero, at row p: the sum over that row. -/
theorem rowsum_at (v : FVec Ideal S512x2048 .f32) (h : S512x2048.Reduces [1] S512) (hφ : FKind.Formats .f32)
    (hacc : (0x00000000#32 : BitVec 32) = FKind.add.neutral .f32 hφ) (p : Fin 512) :
    multiReduction (F := Ideal) .add [1] S512 v 0x00000000#32 h hφ hacc (ix1 p) = ∑ s : Fin 2048, v (ix2 p s) := by
  refine (Ideal.multiReduction_add_single v _ h hφ hacc (ix1 p)).trans ?_
  exact Finset.sum_congr rfl fun k _ => congrArg v (lift_row h p k)

/-- A [512] vector viewed [512, 1] and broadcast along the rows reads its entry p at (p, s). -/
theorem keep_at (w : FVec Ideal S512 .f32) (h1 : S512.ShapeCasts S512x1) (h2 : S512x1.Broadcasts S512x2048) (p : Fin 512) (s : Fin 2048) :
    (broadcastTo S512x2048 (shapeCast S512x1 w h1 : FVec Ideal S512x1 .f32) h2 : FVec Ideal S512x2048 .f32) (ix2 p s) = w (ix1 p) := by
  refine (broadcastTo_apply _ h2 (ix2 p s) (ix2 p 0) (fun a => ?_)).trans ?_
  · match a with
    | ⟨0, _⟩ => show p.val = if (512 : Nat) = 1 then 0 else p.val; rw [if_neg (by decide)]
    | ⟨1, _⟩ => show (0 : Nat) = if (1 : Nat) = 1 then 0 else s.val; rw [if_pos rfl]
  · refine shapeCast_apply w h1 (ix2 p 0) (ix1 p) ?_
    rw [Shape.rowMajor_val_one, Shape.rowMajor_val_two]
    show p.val = p.val * 1 + 0
    omega

/-- exp (scores − row maximum) at (p, s), from the scores of row p. -/
theorem expo_at (v4 : FVec Ideal S512x2048 .f32) (sc : Fin 2048 → EReal) (p : Fin 512) (hv4 : ∀ s, v4 (ix2 p s) = sc s)
    (h : S512x2048.Reduces [1] S512) (hφ : FKind.Formats .f32) (hacc : (0xFF800000#32 : BitVec 32) = FKind.maximumf.neutral .f32 hφ)
    (h1 : S512.ShapeCasts S512x1) (h2 : S512x1.Broadcasts S512x2048) (s : Fin 2048) :
    (exp (subf v4 (broadcastTo S512x2048 (shapeCast S512x1 (multiReduction (F := Ideal) .maximumf [1] S512 v4 0xFF800000#32 h hφ hacc) h1 : FVec Ideal S512x1 .f32) h2)) : FVec Ideal S512x2048 .f32) (ix2 p s)
      = expo sc s := by
  show Ideal.exp (v4 (ix2 p s) - (broadcastTo S512x2048 (shapeCast S512x1 (multiReduction (F := Ideal) .maximumf [1] S512 v4 0xFF800000#32 h hφ hacc) h1 : FVec Ideal S512x1 .f32) h2 : FVec Ideal S512x2048 .f32) (ix2 p s)) = _
  rw [keep_at, rowmax_at, hv4, show (fun s => v4 (ix2 p s)) = sc from funext hv4]
  rfl

/-- The softmax weights at (p, s), from exp (scores − row maximum) of row p. -/
theorem weights_at (v9 : FVec Ideal S512x2048 .f32) (sc : Fin 2048 → EReal) (p : Fin 512) (hv9 : ∀ s, v9 (ix2 p s) = expo sc s)
    (h : S512x2048.Reduces [1] S512) (hφ : FKind.Formats .f32) (hacc : (0x00000000#32 : BitVec 32) = FKind.add.neutral .f32 hφ)
    (h1 : S512.ShapeCasts S512x1) (h2 : S512x1.Broadcasts S512x2048) (s : Fin 2048) :
    (divf v9 (broadcastTo S512x2048 (shapeCast S512x1 (multiReduction (F := Ideal) .add [1] S512 v9 0x00000000#32 h hφ hacc) h1 : FVec Ideal S512x1 .f32) h2) : FVec Ideal S512x2048 .f32) (ix2 p s)
      = weights sc s := by
  show Ideal.div (v9 (ix2 p s)) ((broadcastTo S512x2048 (shapeCast S512x1 (multiReduction (F := Ideal) .add [1] S512 v9 0x00000000#32 h hφ hacc) h1 : FVec Ideal S512x1 .f32) h2 : FVec Ideal S512x2048 .f32) (ix2 p s)) = _
  rw [keep_at, rowsum_at, hv9, Finset.sum_congr rfl fun s' _ => hv9 s']
  rfl

/-! ### The weighted sum of the value rows: the product contracts axis 1 of the weights with axis 0 of the values -/

theorem lhs_pv_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem lhs_pv_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem rhs_pv_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem rhs_pv_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- weights·values into the zero accumulator at (p, k): the sum over the 2048 keys. -/
theorem pv_at (l : FVec Ideal S512x2048 .bf16) (r : FVec Ideal S2048x1024 .bf16) (p : Fin 512) (k : Fin 1024) :
    (matmul dot_S512x2048_S2048x1024_S512x1024_1_0_0_1_n_n none l r (constant S512x1024 .f32 0x00000000#32) : FVec Ideal S512x1024 .f32) (ix2 p k)
      = ∑ s : Fin 2048, l (ix2 p s) * r (ix2 s k) := by
  refine (Ideal.matmul_constant_zero_apply dot_S512x2048_S2048x1024_S512x1024_1_0_0_1_n_n none l r (ix2 p k)).trans ?_
  rw [← Equiv.sum_comp (ValueIdx.contrEquiv1 dot_S512x2048_S2048x1024_S512x1024_1_0_0_1_n_n 2048 rfl rfl).symm]
  refine Finset.sum_congr rfl fun s _ => ?_
  have hk := ValueIdx.contrEquiv1_symm_val dot_S512x2048_S2048x1024_S512x1024_1_0_0_1_n_n 2048 rfl rfl s
  have el : dot_S512x2048_S2048x1024_S512x1024_1_0_0_1_n_n.lhsIdx (ix2 p k) ((ValueIdx.contrEquiv1 dot_S512x2048_S2048x1024_S512x1024_1_0_0_1_n_n 2048 rfl rfl).symm s) = ix2 p s := funext fun a => Fin.ext (by
    match a with
    | ⟨0, _⟩ => exact lhs_pv_0 _ _
    | ⟨1, _⟩ => exact (lhs_pv_1 _ _).trans hk)
  have er : dot_S512x2048_S2048x1024_S512x1024_1_0_0_1_n_n.rhsIdx (ix2 p k) ((ValueIdx.contrEquiv1 dot_S512x2048_S2048x1024_S512x1024_1_0_0_1_n_n 2048 rfl rfl).symm s) = ix2 s k := funext fun a => Fin.ext (by
    match a with
    | ⟨0, _⟩ => exact (rhs_pv_0 _ _).trans hk
    | ⟨1, _⟩ => exact rhs_pv_1 _ _)
  rw [el, er]

/-- A [512, 1024] result stored as a [1, 512, 1024] block reads (p, j) at (0, p, j). -/
theorem addUnit_at (v : FVec Ideal S512x1024 .f32) (h : S512x1024.ShapeCasts S1x512x1024) (p : Fin 512) (j : Fin 1024) :
    (shapeCast S1x512x1024 v h : FVec Ideal S1x512x1024 .f32) (ix3 0 p j) = v (ix2 p j) := by
  refine shapeCast_apply v h (ix3 0 p j) (ix2 p j) ?_
  rw [Shape.rowMajor_val_three, Shape.rowMajor_val_two]
  show p.val * 1024 + j.val = ((0 * 512 + p.val) * 1024 + j.val)
  omega

/-! ### The payload at (0, p, j): one row of the attention, then the last dense layer with its ReLU -/

theorem pay_at (v0 : Vec Ideal S1x512x1024 .bf16) (v2 : Vec Ideal S1x2048x1024 .bf16) (v14 : Vec Ideal S1x2048x1024 .bf16)
    (v18 : Vec Ideal S1024x1024 .bf16) (v22 : Vec Ideal S1x1024 .f32) (p : Fin 512) (j : Fin 1024) :
    k1_pay1 (F := Ideal) v0 v2 v14 v18 v22 (ix3 0 p j)
      = attnRow (fun d => v0 (ix3 0 p d)) (fun s d => v2 (ix3 0 s d)) (fun s d => v14 (ix3 0 s d)) (fun k j => v18 (ix2 k j)) (fun j => v22 (ix2 0 j)) j := by
  unfold k1_pay1
  refine (addUnit_at _ _ p j).trans ?_
  refine (maximumf_apply _ _ _).trans ?_
  unfold attnRow
  refine congrArg₂ max ?_ rfl
  refine (DenseAt.dense_at _ v18 v22 p j).trans ?_
  refine congrArg (fun r => dense (fun k j => v18 (ix2 k j)) (fun j => v22 (ix2 0 j)) r j) (funext fun k => ?_)
  refine (truncf_apply (φ := .f32) (ψ := .bf16) _ Gen.bitsLt_bf16_f32 (ix2 p k)).trans ?_
  refine (pv_at _ _ p k).trans ?_
  unfold mix
  refine Finset.sum_congr rfl fun s _ => ?_
  refine congrArg₂ (· * ·) ?_ (drop2048_at v14 _ s k)
  refine (truncf_apply (φ := .f32) (ψ := .bf16) _ Gen.bitsLt_bf16_f32 (ix2 p s)).trans ?_
  refine weights_at _ _ p (fun s' => expo_at _ _ p (fun s'' => ?_) _ _ _ _ _ s') _ _ _ _ _ s
  refine (qk_at _ _ p s'').trans ?_
  unfold scores
  exact Finset.sum_congr rfl fun d _ => congrArg₂ (· * ·) (drop512_at v0 _ p d) (drop2048_at v2 _ s'' d)

/-! ## What a point writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- The attention row depends on its six arguments only. -/
theorem attnRow_congr {q q' : Fin 1024 → EReal} {K K' Vv Vv' : Fin 2048 → Fin 1024 → EReal} {W W' : Fin 1024 → Fin 1024 → EReal}
    {b b' : Fin 1024 → EReal} {j j' : Fin 1024} (hq : q = q') (hK : K = K') (hV : Vv = Vv') (hW : W = W') (hb : b = b') (hj : j = j') :
    attnRow q K Vv W b j = attnRow q' K' Vv' W' b' j' := by
  subst hq hK hV hW hb hj; rfl

/-- The blocks' index maps over the 32 grid points: the query block moves with the output block, the key
    and value blocks follow the batch coordinate only, the weights and the bias are whole. -/
theorem idx_facts : ∀ t : Fin cfg1.N,
    win1_0.index t (0 : Fin 3) = win1_5.index t (0 : Fin 3) ∧ win1_0.index t (1 : Fin 3) = win1_5.index t (1 : Fin 3) ∧ win1_0.index t (2 : Fin 3) = 0
    ∧ win1_1.index t (0 : Fin 3) = win1_5.index t (0 : Fin 3) ∧ win1_1.index t (1 : Fin 3) = 0 ∧ win1_1.index t (2 : Fin 3) = 0
    ∧ win1_2.index t (0 : Fin 3) = win1_5.index t (0 : Fin 3) ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (2 : Fin 3) = 0 ∧ win1_5.index t (0 : Fin 3) ≤ 7 ∧ win1_5.index t (1 : Fin 3) ≤ 3 :=
  (by decide +kernel : ∀ t : Fin grid1.N, _)

theorem flushed_eq (c : Dev nD) (t : Fin cfg1.N) :
    (dat1 (F := Ideal) V c).flushed 5 t
      = ((cfg1.win 5).blk t).view.read (Elt Ideal) (attnArr (V c main_v11) (V c main_v12) (V c main_v13) (V c main_v5) (V c main_v14)) := by
  show (cfg1.win 5).cut (grid1.coords t) ((dat1 (F := Ideal) V c).after 5 t) = _
  rw [after1_5]
  unfold out1_5
  rw [View.canon_unit_zero hz3]
  simp only [View.ld_unit_zero (S := S1x512x1024) hz3, View.ld_unit_zero (S := S1x2048x1024) hz3, View.ld_unit_zero (S := S1024x1024) hz2, View.ld_unit_zero (S := S1x1024) hz2]
  obtain ⟨e00, e01, e02, e10, e11, e12, e20, e21, e22, e30, e31, e40, e41, e52, b50, b51⟩ := idx_facts t
  funext y
  obtain ⟨p, j, rfl⟩ : ∃ (p : Fin 512) (j : Fin 1024), y = ix3 0 p j := ⟨y 1, y 2, by
    funext a
    match a with
    | ⟨0, _⟩ => exact Fin.ext (by have h0 : (y 0).val < 1 := (y 0).isLt; show (y 0).val = 0; omega)
    | ⟨1, _⟩ => rfl
    | ⟨2, _⟩ => rfl⟩
  refine (pay_at (iblk1 V c 0 t) (iblk1 V c 1 t) (iblk1 V c 2 t) (iblk1 V c 3 t) (iblk1 V c 4 t) p j).trans ?_
  show _ = attnArr (V c main_v11) (V c main_v12) (V c main_v13) (V c main_v5) (V c main_v14) (((cfg1.win 5).blk t).view.emb (ix3 0 p j))
  unfold attnArr
  refine attnRow_congr (funext fun d => ?_) (funext fun s => funext fun d => ?_) (funext fun s => funext fun d => ?_) (funext fun k => funext fun j' => ?_) (funext fun j' => ?_) ?_
  · show V c main_v11 (((cfg1.win 0).blk t).view.emb (ix3 0 p d)) = _
    refine congrArg (V c main_v11) (funext fun a => Fin.ext ?_)
    match a with
    | ⟨0, _⟩ => show win1_0.index t (0 : Fin 3) * 1 + 1 * (0 : Nat) = win1_5.index t (0 : Fin 3) * 1 + 1 * (0 : Nat); omega
    | ⟨1, _⟩ => show win1_0.index t (1 : Fin 3) * 512 + 1 * p.val = win1_5.index t (1 : Fin 3) * 512 + 1 * p.val; omega
    | ⟨2, _⟩ => show win1_0.index t (2 : Fin 3) * 1024 + 1 * d.val = d.val; omega
  · show V c main_v12 (((cfg1.win 1).blk t).view.emb (ix3 0 s d)) = _
    refine congrArg (V c main_v12) (funext fun a => Fin.ext ?_)
    match a with
    | ⟨0, _⟩ => show win1_1.index t (0 : Fin 3) * 1 + 1 * (0 : Nat) = win1_5.index t (0 : Fin 3) * 1 + 1 * (0 : Nat); omega
    | ⟨1, _⟩ => show win1_1.index t (1 : Fin 3) * 2048 + 1 * s.val = s.val; omega
    | ⟨2, _⟩ => show win1_1.index t (2 : Fin 3) * 1024 + 1 * d.val = d.val; omega
  · show V c main_v13 (((cfg1.win 2).blk t).view.emb (ix3 0 s d)) = _
    refine congrArg (V c main_v13) (funext fun a => Fin.ext ?_)
    match a with
    | ⟨0, _⟩ => show win1_2.index t (0 : Fin 3) * 1 + 1 * (0 : Nat) = win1_5.index t (0 : Fin 3) * 1 + 1 * (0 : Nat); omega
    | ⟨1, _⟩ => show win1_2.index t (1 : Fin 3) * 2048 + 1 * s.val = s.val; omega
    | ⟨2, _⟩ => show win1_2.index t (2 : Fin 3) * 1024 + 1 * d.val = d.val; omega
  · show V c main_v5 (((cfg1.win 3).blk t).view.emb (ix2 k j')) = _
    refine congrArg (V c main_v5) (funext fun a => Fin.ext ?_)
    match a with
    | ⟨0, _⟩ => show win1_3.index t (0 : Fin 2) * 1024 + 1 * k.val = k.val; omega
    | ⟨1, _⟩ => show win1_3.index t (1 : Fin 2) * 1024 + 1 * j'.val = j'.val; omega
  · show V c main_v14 (((cfg1.win 4).blk t).view.emb (ix2 0 j')) = _
    refine congrArg (V c main_v14) (funext fun a => Fin.ext ?_)
    match a with
    | ⟨0, _⟩ => show win1_4.index t (0 : Fin 2) * 1 + 1 * (0 : Nat) = 0; omega
    | ⟨1, _⟩ => show win1_4.index t (1 : Fin 2) * 1024 + 1 * j'.val = j'.val; omega
  · refine Fin.ext ?_
    show j.val = win1_5.index t (2 : Fin 3) * 1024 + 1 * j.val
    omega

/-! ## The output's blocks cover its array -/

/-- Every block index (b, qi, 0) of the output is some grid point's. -/
theorem idx_onto : ∀ (b : Fin 8) (qi : Fin 4), ∃ t : Fin cfg1.N, win1_5.index t = ![b.val, qi.val, 0] :=
  (by decide +kernel : ∀ (b : Fin 8) (qi : Fin 4), ∃ t : Fin grid1.N, win1_5.index t = ![b.val, qi.val, 0])

/-- An index of the array is in point t's block iff each coordinate is in the block's range on its axis. -/
theorem mem_blk (t : Fin cfg1.N) (i : S8x2048x1024.Idx) :
    i ∈ ((cfg1.win 5).blk t).view.set ↔ ∀ a : Fin 3, win1_5.index t a * S1x512x1024.size a ≤ (i a).val ∧ (i a).val < win1_5.index t a * S1x512x1024.size a + S1x512x1024.size a := by
  show i ∈ ((View.whole main_v15).slice (win1_5.rect t)).set ↔ _
  rw [View.set_slice_whole, Rect.mem_set_unit]
  exact Iff.rfl

/-- Index (b, r, j) lies in the block of the point whose output block index is (b, r / 512, 0). -/
theorem cover (i : S8x2048x1024.Idx) : ∃ t : Fin cfg1.N, (cfg1.win 5).flush t = true ∧ i ∈ ((cfg1.win 5).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win1_5.index t (0 : Fin 3) = (i 0).val := congrFun ht 0
  have q1 : win1_5.index t (1 : Fin 3) = (i 1).val / 512 := congrFun ht 1
  have q2 : win1_5.index t (2 : Fin 3) = 0 := congrFun ht 2
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 1024 ≤ (i 2).val ∧ (i 2).val < win1_5.index t (2 : Fin 3) * 1024 + 1024; omega

/-! ## The array after the run -/

theorem arr_o (c : Dev nD) :
    (dat1 (F := Ideal) V c).arrAt 5 cfg1.N = attnArr (V c main_v11) (V c main_v12) (V c main_v13) (V c main_v5) (V c main_v14) := by
  exact (dat1 (F := Ideal) V c).arrAt_eq_of_cover 5 (attnArr (V c main_v11) (V c main_v12) (V c main_v13) (V c main_v5) (V c main_v14))
    (fun t _ => flushed_eq V c t) (fun i => cover i)

end Cert.KernelIdeal.Reg1

end
-- ==== Proof.Glue.lean ====
/-
  The kernel's two launches and the reshapes between them, composed on arrays, are the layer of Spec.lean.

  The projection launch works on the input flattened to 16384 rows (row 2048·b + t is token t of batch b) and
  leaves q, k, v as [16384, 1024] arrays; each is regrouped into [8, 2048, 1024]; the attention launch works on
  those; its result is flattened and regrouped once more, which is the identity. Row by row: a row of q (k, v)
  depends only on the same row of the input, so regrouping the projected array is projecting the regrouped rows,
  and the attention of (b, t) sees exactly the rows of batch b.
-/
import proofs.«410532_j19078244729546_3_alg».proof.Proof.Spec
import Idealize.ShloMosaic.Lib.Pipeline.Value

noncomputable section

namespace Cert.Attn

open Idealize.ShloMosaic Idealize.ShloMosaic.ValueIdx

/-- Row 2048·b + t of the flattened array. -/
abbrev flatRow (b : Fin 8) (t : Fin 2048) : Fin 16384 := ⟨b.val * 2048 + t.val, by have := b.isLt; have := t.isLt; omega⟩

/-- A bias of 1024 entries seen as one row. -/
theorem bias_row (c : B1.Idx → EReal) (h : B1.ShapeCasts B2) (j : Fin 1024) : shapeCast B2 c h (ix2 0 j) = c (ix1 j) := by
  refine shapeCast_apply c h (ix2 0 j) (ix1 j) ?_
  rw [Shape.rowMajor_val_one, Shape.rowMajor_val_two]
  show j.val = 0 * 1024 + j.val
  omega

/-- The flattened input at row 2048·b + t is token t of batch b. -/
theorem flat_apply (x : T3.Idx → EReal) (h : T3.ShapeCasts R2) (b : Fin 8) (t : Fin 2048) (k : Fin 1024) :
    shapeCast R2 x h (ix2 (flatRow b t) k) = x (ix3 b t k) := by
  refine shapeCast_apply x h (ix2 (flatRow b t) k) (ix3 b t k) ?_
  rw [Shape.rowMajor_val_three, Shape.rowMajor_val_two]
  show (b.val * 2048 + t.val) * 1024 + k.val = (b.val * 2048 + t.val) * 1024 + k.val
  rfl

/-- A [16384, 1024] array regrouped by batch, at (b, t, d), is its row 2048·b + t. -/
theorem regroup_apply (y : R2.Idx → EReal) (h : R2.ShapeCasts T3) (b : Fin 8) (t : Fin 2048) (d : Fin 1024) :
    shapeCast T3 y h (ix3 b t d) = y (ix2 (flatRow b t) d) := by
  refine shapeCast_apply y h (ix3 b t d) (ix2 (flatRow b t) d) ?_
  rw [Shape.rowMajor_val_three, Shape.rowMajor_val_two]
  show (b.val * 2048 + t.val) * 1024 + d.val = (b.val * 2048 + t.val) * 1024 + d.val
  rfl

/-- The projected array regrouped by batch, at (b, t, d): the projection of token t of batch b. -/
theorem regroup_proj (x : T3.Idx → EReal) (W0 : M2.Idx → EReal) (b0 : B1.Idx → EReal) (Wp : M2.Idx → EReal) (bp : B1.Idx → EReal)
    (h32 : T3.ShapeCasts R2) (h23 : R2.ShapeCasts T3) (h12 : B1.ShapeCasts B2) (b : Fin 8) (t : Fin 2048) (d : Fin 1024) :
    shapeCast T3 (projArr (shapeCast R2 x h32) W0 (shapeCast B2 b0 h12) Wp (shapeCast B2 bp h12)) h23 (ix3 b t d)
      = proj (fun k j => W0 (ix2 k j)) (fun j => b0 (ix1 j)) (fun k j => Wp (ix2 k j)) (fun j => bp (ix1 j)) (fun k => x (ix3 b t k)) d := by
  rw [regroup_apply]
  show proj (fun k j => W0 (ix2 k j)) (fun j => shapeCast B2 b0 h12 (ix2 0 j)) (fun k j => Wp (ix2 k j)) (fun j => shapeCast B2 bp h12 (ix2 0 j))
      (fun k => shapeCast R2 x h32 (ix2 (flatRow b t) k)) d = _
  simp only [bias_row, flat_apply]

/-- The two launches and the reshapes around them, on arrays, are the layer. -/
theorem kernel_eq_out (x : T3.Idx → EReal) (W0 : M2.Idx → EReal) (b0 : B1.Idx → EReal) (Wq : M2.Idx → EReal) (bq : B1.Idx → EReal)
    (Wk : M2.Idx → EReal) (bk : B1.Idx → EReal) (Wv : M2.Idx → EReal) (bv : B1.Idx → EReal) (W1 : M2.Idx → EReal) (b1 : B1.Idx → EReal)
    (h32 : T3.ShapeCasts R2) (h23 : R2.ShapeCasts T3) (h12 : B1.ShapeCasts B2) :
    shapeCast T3 (shapeCast R2
        (attnArr (shapeCast T3 (projArr (shapeCast R2 x h32) W0 (shapeCast B2 b0 h12) Wq (shapeCast B2 bq h12)) h23)
          (shapeCast T3 (projArr (shapeCast R2 x h32) W0 (shapeCast B2 b0 h12) Wk (shapeCast B2 bk h12)) h23)
          (shapeCast T3 (projArr (shapeCast R2 x h32) W0 (shapeCast B2 b0 h12) Wv (shapeCast B2 bv h12)) h23)
          W1 (shapeCast B2 b1 h12)) h32) h23
      = out x W0 b0 Wq bq Wk bk Wv bv W1 b1 := by
  rw [shapeCast_shapeCast]
  funext i
  obtain ⟨b, t, j, rfl⟩ : ∃ (b : Fin 8) (t : Fin 2048) (j : Fin 1024), i = ix3 b t j := ⟨i 0, i 1, i 2, eq_ix3 i⟩
  show attnRow (fun d => shapeCast T3 (projArr (shapeCast R2 x h32) W0 (shapeCast B2 b0 h12) Wq (shapeCast B2 bq h12)) h23 (ix3 b t d))
      (fun s d => shapeCast T3 (projArr (shapeCast R2 x h32) W0 (shapeCast B2 b0 h12) Wk (shapeCast B2 bk h12)) h23 (ix3 b s d))
      (fun s d => shapeCast T3 (projArr (shapeCast R2 x h32) W0 (shapeCast B2 b0 h12) Wv (shapeCast B2 bv h12)) h23 (ix3 b s d))
      (fun k j => W1 (ix2 k j)) (fun j => shapeCast B2 b1 h12 (ix2 0 j)) j
    = attnRow (proj (fun k j => W0 (ix2 k j)) (fun j => b0 (ix1 j)) (fun k j => Wq (ix2 k j)) (fun j => bq (ix1 j)) (fun k => x (ix3 b t k)))
      (fun s => proj (fun k j => W0 (ix2 k j)) (fun j => b0 (ix1 j)) (fun k j => Wk (ix2 k j)) (fun j => bk (ix1 j)) (fun k => x (ix3 b s k)))
      (fun s => proj (fun k j => W0 (ix2 k j)) (fun j => b0 (ix1 j)) (fun k j => Wv (ix2 k j)) (fun j => bv (ix1 j)) (fun k => x (ix3 b s k)))
      (fun k j => W1 (ix2 k j)) (fun j => b1 (ix1 j)) j
  simp only [regroup_proj, bias_row]

end Cert.Attn

end
-- ==== Proof.HostGlue.lean ====
/-
  The result array of the two-launch program, read back through the program's segments to the eleven arguments.

  The program is: ten host operations (the input flattened to [16384, 1024]; the five weight matrices passed on — a
  change of float format is the identity on extended reals —; four biases seen as [1, 1024] rows), the projection
  launch, four host operations (q, k, v regrouped to [8, 2048, 1024]; the last bias as a row), the attention launch,
  two host operations (the result flattened and regrouped). Each boundary's contents are named by the generated
  frame (W1 … W5); each launch's output arrays are what Region0Arr / Region1Arr say they are; composing gives the
  array-level term that Glue.lean proves equal to the layer.
-/
import proofs.«410532_j19078244729546_3_alg».proof.Proof.Gen.KernelIdeal.Frame
import proofs.«410532_j19078244729546_3_alg».proof.Proof.Region0Arr
import proofs.«410532_j19078244729546_3_alg».proof.Proof.Region1Arr
import proofs.«410532_j19078244729546_3_alg».proof.Proof.Glue
import Idealize.ShloMosaic.Lib.StableHlo.Run

set_option maxRecDepth 16384

noncomputable section

namespace Cert.KernelIdeal.HostV

open Cert.KernelIdeal Cert.KernelIdeal.Gen
open Idealize.ShloMosaic Idealize.ShloMosaic.TcCoe Idealize.SL.Sem Idealize.ShloMosaic.StableHlo Cert.Attn

variable (m : (ℓ : Loc nD τ sig) → Buf (Elt Ideal) ℓ) (ρ : Dev nD → PrngReg)

/-! ## What the projection launch is entered with -/

theorem in_x (c : Dev nD) : V1 m ρ c main_v0 = shapeCast S16384x1024 (m ((c : Thread nD τ).loc main_arg0)) shapeCasts_S8x2048x1024_S16384x1024 := by
  show StableHlo.after hostOps0 (W0 m ρ c) (Proc.devRef .tc main_v0) = _
  after_results
  rfl

theorem in_W0 (c : Dev nD) : V1 m ρ c main_v1 = m ((c : Thread nD τ).loc main_arg1) := by
  show StableHlo.after hostOps0 (W0 m ρ c) (Proc.devRef .tc main_v1) = _
  after_results
  rfl

theorem in_Wq (c : Dev nD) : V1 m ρ c main_v2 = m ((c : Thread nD τ).loc main_arg3) := by
  show StableHlo.after hostOps0 (W0 m ρ c) (Proc.devRef .tc main_v2) = _
  after_results
  rfl

theorem in_Wk (c : Dev nD) : V1 m ρ c main_v3 = m ((c : Thread nD τ).loc main_arg5) := by
  show StableHlo.after hostOps0 (W0 m ρ c) (Proc.devRef .tc main_v3) = _
  after_results
  rfl

theorem in_Wv (c : Dev nD) : V1 m ρ c main_v4 = m ((c : Thread nD τ).loc main_arg7) := by
  show StableHlo.after hostOps0 (W0 m ρ c) (Proc.devRef .tc main_v4) = _
  after_results
  rfl

theorem in_b0 (c : Dev nD) : V1 m ρ c main_v6 = shapeCast S1x1024 (m ((c : Thread nD τ).loc main_arg2)) shapeCasts_S1024_S1x1024 := by
  show StableHlo.after hostOps0 (W0 m ρ c) (Proc.devRef .tc main_v6) = _
  after_results
  rfl

theorem in_bq (c : Dev nD) : V1 m ρ c main_v7 = shapeCast S1x1024 (m ((c : Thread nD τ).loc main_arg4)) shapeCasts_S1024_S1x1024 := by
  show StableHlo.after hostOps0 (W0 m ρ c) (Proc.devRef .tc main_v7) = _
  after_results
  rfl

theorem in_bk (c : Dev nD) : V1 m ρ c main_v8 = shapeCast S1x1024 (m ((c : Thread nD τ).loc main_arg6)) shapeCasts_S1024_S1x1024 := by
  show StableHlo.after hostOps0 (W0 m ρ c) (Proc.devRef .tc main_v8) = _
  after_results
  rfl

theorem in_bv (c : Dev nD) : V1 m ρ c main_v9 = shapeCast S1x1024 (m ((c : Thread nD τ).loc main_arg8)) shapeCasts_S1024_S1x1024 := by
  show StableHlo.after hostOps0 (W0 m ρ c) (Proc.devRef .tc main_v9) = _
  after_results
  rfl

/-! ## What the projection launch leaves -/

theorem out_q (c : Dev nD) : W2 m ρ c (Proc.devRef .tc main_v10_0)
    = projArr (V1 m ρ c main_v0) (V1 m ρ c main_v1) (V1 m ρ c main_v6) (V1 m ρ c main_v2) (V1 m ρ c main_v7) :=
  (W2_arr m ρ c 9).trans (Reg0.arr_q (V1 m ρ) c)

theorem out_k (c : Dev nD) : W2 m ρ c (Proc.devRef .tc main_v10_1)
    = projArr (V1 m ρ c main_v0) (V1 m ρ c main_v1) (V1 m ρ c main_v6) (V1 m ρ c main_v3) (V1 m ρ c main_v8) :=
  (W2_arr m ρ c 10).trans (Reg0.arr_k (V1 m ρ) c)

theorem out_v (c : Dev nD) : W2 m ρ c (Proc.devRef .tc main_v10_2)
    = projArr (V1 m ρ c main_v0) (V1 m ρ c main_v1) (V1 m ρ c main_v6) (V1 m ρ c main_v4) (V1 m ρ c main_v9) :=
  (W2_arr m ρ c 11).trans (Reg0.arr_v (V1 m ρ) c)

/-! ## What the attention launch is entered with -/

theorem in_q (c : Dev nD) : V3 m ρ c main_v11 = shapeCast S8x2048x1024 (W2 m ρ c (Proc.devRef .tc main_v10_0)) shapeCasts_S16384x1024_S8x2048x1024 := by
  show StableHlo.after hostOps1 (W2 m ρ c) (Proc.devRef .tc main_v11) = _
  after_results
  rfl

theorem in_k (c : Dev nD) : V3 m ρ c main_v12 = shapeCast S8x2048x1024 (W2 m ρ c (Proc.devRef .tc main_v10_1)) shapeCasts_S16384x1024_S8x2048x1024 := by
  show StableHlo.after hostOps1 (W2 m ρ c) (Proc.devRef .tc main_v12) = _
  after_results
  rfl

theorem in_v (c : Dev nD) : V3 m ρ c main_v13 = shapeCast S8x2048x1024 (W2 m ρ c (Proc.devRef .tc main_v10_2)) shapeCasts_S16384x1024_S8x2048x1024 := by
  show StableHlo.after hostOps1 (W2 m ρ c) (Proc.devRef .tc main_v13) = _
  after_results
  rfl

theorem in_W1 (c : Dev nD) : V3 m ρ c main_v5 = m ((c : Thread nD τ).loc main_arg9) := by
  show StableHlo.after hostOps1 (W2 m ρ c) (Proc.devRef .tc main_v5) = _
  after_results
  rw [W2_of_ne m ρ c main_v5 (by decide)]
  show StableHlo.after hostOps0 (W0 m ρ c) (Proc.devRef .tc main_v5) = _
  after_results
  rfl

theorem in_b1 (c : Dev nD) : V3 m ρ c main_v14 = shapeCast S1x1024 (m ((c : Thread nD τ).loc main_arg10)) shapeCasts_S1024_S1x1024 := by
  show StableHlo.after hostOps1 (W2 m ρ c) (Proc.devRef .tc main_v14) = _
  after_results
  rw [W2_of_ne m ρ c main_arg10 (by decide)]
  show shapeCast S1x1024 (StableHlo.after hostOps0 (W0 m ρ c) (Proc.devRef .tc main_arg10)) _ = _
  after_results

/-! ## What the attention launch leaves, and the result -/

theorem out_o (c : Dev nD) : W4 m ρ c (Proc.devRef .tc main_v15)
    = attnArr (V3 m ρ c main_v11) (V3 m ρ c main_v12) (V3 m ρ c main_v13) (V3 m ρ c main_v5) (V3 m ρ c main_v14) :=
  (W4_arr m ρ c 5).trans (Reg1.arr_o (V3 m ρ) c)

theorem result_shape (c : Dev nD) : W5 m ρ c (Proc.devRef .tc main_v17)
    = shapeCast S8x2048x1024 (shapeCast S16384x1024 (W4 m ρ c (Proc.devRef .tc main_v15)) shapeCasts_S8x2048x1024_S16384x1024) shapeCasts_S16384x1024_S8x2048x1024 := by
  show StableHlo.after hostOps2 (W4 m ρ c) (Proc.devRef .tc main_v17) = _
  after_results
  rfl

/-- The result array after the run is the layer of the eleven arguments. -/
theorem result_eq (c : Dev nD) : W5 m ρ c (Proc.devRef .tc main_v17)
    = Cert.Attn.out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  rw [result_shape, out_o, in_q, in_k, in_v, in_W1, in_b1, out_q, out_k, out_v, in_x, in_W0, in_Wq, in_Wk, in_Wv, in_b0, in_bq, in_bk, in_bv]
  exact Cert.Attn.kernel_eq_out _ _ _ _ _ _ _ _ _ _ _ _ _ _

end Cert.KernelIdeal.HostV

end
-- ==== Proof.RefValue.lean ====
/-
  The reference program, read one operation at a time at an index, is the layer of Spec.lean.

  Its result at (b, t, j) is reached stage by stage: the first dense layer with ReLU gives the hidden row of token
  (b, t); three dense layers with tanh on it give the query, key and value rows; the batched product of queries and
  keys gives the scores of (b, t) against the 2048 keys of batch b; their maximum (a fold of max from −∞, and one
  more maximum with −∞, which changes nothing), the exponentials of the differences, their sum (from the f32 zero),
  the quotients, the batched product with the value rows, and the last dense layer with ReLU. Each stage is the
  corresponding definition of `Cert.Attn` at explicit coordinates; the only index work is naming the generated
  operand-index functions at `ix3 b t j`.
-/
import proofs.«410532_j19078244729546_3_alg».proof.Proof.Gen.ReferenceIdeal.Run
import proofs.«410532_j19078244729546_3_alg».proof.Proof.Gen.ReferenceIdeal.Read
import proofs.«410532_j19078244729546_3_alg».proof.Proof.Spec

noncomputable section

namespace Cert.RefBridge

open Cert.ReferenceIdeal Cert.ReferenceIdeal.Gen Cert.ReferenceIdeal.Read Idealize.ShloMosaic Idealize.ShloMosaic.TcCoe Idealize.ShloMosaic.ValueIdx Cert.Attn

/-! ## The generated index functions at explicit coordinates -/

section Indices
variable (b : Fin 8) (t : Fin 2048) (j : Fin 1024) (s : Fin 2048) (k : Fin 1024) (s' : Fin 2048)

theorem lidx_v0 : lidx_main_v0 (ix3 b t j) k = ix3 b t k :=
  funext fun a => Fin.ext (by match a with | ⟨0, _⟩ => rfl | ⟨1, _⟩ => rfl | ⟨2, _⟩ => rfl)
theorem ridx_v0 : ridx_main_v0 (ix3 b t j) k = ix2 k j :=
  funext fun a => Fin.ext (by match a with | ⟨0, _⟩ => rfl | ⟨1, _⟩ => rfl)
theorem idx_v2 : idx_main_v1 (idx_main_v2 (ix3 b t j)) = ix1 j :=
  funext fun a => Fin.ext (by match a with | ⟨0, _⟩ => rfl)

theorem lidx_v5 : lidx_main_v5 (ix3 b t j) k = ix3 b t k :=
  funext fun a => Fin.ext (by match a with | ⟨0, _⟩ => rfl | ⟨1, _⟩ => rfl | ⟨2, _⟩ => rfl)
theorem ridx_v5 : ridx_main_v5 (ix3 b t j) k = ix2 k j :=
  funext fun a => Fin.ext (by match a with | ⟨0, _⟩ => rfl | ⟨1, _⟩ => rfl)
theorem idx_v7 : idx_main_v6 (idx_main_v7 (ix3 b t j)) = ix1 j :=
  funext fun a => Fin.ext (by match a with | ⟨0, _⟩ => rfl)

theorem lidx_v10 : lidx_main_v10 (ix3 b t j) k = ix3 b t k :=
  funext fun a => Fin.ext (by match a with | ⟨0, _⟩ => rfl | ⟨1, _⟩ => rfl | ⟨2, _⟩ => rfl)
theorem ridx_v10 : ridx_main_v10 (ix3 b t j) k = ix2 k j :=
  funext fun a => Fin.ext (by match a with | ⟨0, _⟩ => rfl | ⟨1, _⟩ => rfl)
theorem idx_v12 : idx_main_v11 (idx_main_v12 (ix3 b t j)) = ix1 j :=
  funext fun a => Fin.ext (by match a with | ⟨0, _⟩ => rfl)

theorem lidx_v15 : lidx_main_v15 (ix3 b t j) k = ix3 b t k :=
  funext fun a => Fin.ext (by match a with | ⟨0, _⟩ => rfl | ⟨1, _⟩ => rfl | ⟨2, _⟩ => rfl)
theorem ridx_v15 : ridx_main_v15 (ix3 b t j) k = ix2 k j :=
  funext fun a => Fin.ext (by match a with | ⟨0, _⟩ => rfl | ⟨1, _⟩ => rfl)
theorem idx_v17 : idx_main_v16 (idx_main_v17 (ix3 b t j)) = ix1 j :=
  funext fun a => Fin.ext (by match a with | ⟨0, _⟩ => rfl)

theorem lidx_v20 : lidx_main_v20 (ix3 b t s) k = ix3 b t k :=
  funext fun a => Fin.ext (by match a with | ⟨0, _⟩ => rfl | ⟨1, _⟩ => rfl | ⟨2, _⟩ => rfl)
theorem ridx_v20 : ridx_main_v20 (ix3 b t s) k = ix3 b s k :=
  funext fun a => Fin.ext (by match a with | ⟨0, _⟩ => rfl | ⟨1, _⟩ => rfl | ⟨2, _⟩ => rfl)

theorem idx_v25 : idx_main_v24 (idx_main_v25 (ix3 b t s)) = ix2 b t :=
  funext fun a => Fin.ext (by match a with | ⟨0, _⟩ => rfl | ⟨1, _⟩ => rfl)
theorem idx_v28 : idx_main_v28 (ix2 b t) s = ix3 b t s :=
  funext fun a => Fin.ext (by match a with | ⟨0, _⟩ => rfl | ⟨1, _⟩ => rfl | ⟨2, _⟩ => rfl)
theorem idx_v30 : idx_main_v29 (idx_main_v30 (ix3 b t s)) = ix2 b t :=
  funext fun a => Fin.ext (by match a with | ⟨0, _⟩ => rfl | ⟨1, _⟩ => rfl)

theorem lidx_v32 : lidx_main_v32 (ix3 b t j) s = ix3 b t s :=
  funext fun a => Fin.ext (by match a with | ⟨0, _⟩ => rfl | ⟨1, _⟩ => rfl | ⟨2, _⟩ => rfl)
theorem ridx_v32 : ridx_main_v32 (ix3 b t j) s = ix3 b s j :=
  funext fun a => Fin.ext (by match a with | ⟨0, _⟩ => rfl | ⟨1, _⟩ => rfl | ⟨2, _⟩ => rfl)

theorem lidx_v33 : lidx_main_v33 (ix3 b t j) k = ix3 b t k :=
  funext fun a => Fin.ext (by match a with | ⟨0, _⟩ => rfl | ⟨1, _⟩ => rfl | ⟨2, _⟩ => rfl)
theorem ridx_v33 : ridx_main_v33 (ix3 b t j) k = ix2 k j :=
  funext fun a => Fin.ext (by match a with | ⟨0, _⟩ => rfl | ⟨1, _⟩ => rfl)
theorem idx_v35 : idx_main_v34 (idx_main_v35 (ix3 b t j)) = ix1 j :=
  funext fun a => Fin.ext (by match a with | ⟨0, _⟩ => rfl)

end Indices
section Stages

variable (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal)) (x9 : (⟨S1024x1024, .f32⟩ : BufTy).Contents (Elt Ideal))
    (x10 : (⟨S1024, .f32⟩ : BufTy).Contents (Elt Ideal))

/-! ## The first layer and the three projections -/

/-- The hidden row of token (b, t), feature j. -/
theorem hidden_at (b : Fin 8) (t : Fin 2048) (j : Fin 1024) :
    val_main_v4 (F := Ideal) x0 x1 x2 (ix3 b t j)
      = Attn.hidden (fun k j => x1 (ix2 k j)) (fun j => x2 (ix1 j)) (fun k => x0 (ix3 b t k)) j := by
  rw [val_main_v4_apply, val_main_v3_apply, val_main_v0_apply, val_main_v2_apply, val_main_v1_apply,
    val_main_call0_v0_apply, val_main_call0_cst_apply]
  unfold Attn.hidden Attn.dense
  simp only [Ideal.maximumf_def, Ideal.addf_def, Ideal.ofBits_def, lidx_v0, ridx_v0, idx_v2]

/-- The query row of token (b, t). -/
abbrev qRow (b : Fin 8) (t : Fin 2048) : Fin 1024 → EReal :=
  Attn.proj (fun k j => x1 (ix2 k j)) (fun j => x2 (ix1 j)) (fun k j => x3 (ix2 k j)) (fun j => x4 (ix1 j)) (fun k => x0 (ix3 b t k))
/-- The key row of token (b, s). -/
abbrev kRow (b : Fin 8) (s : Fin 2048) : Fin 1024 → EReal :=
  Attn.proj (fun k j => x1 (ix2 k j)) (fun j => x2 (ix1 j)) (fun k j => x5 (ix2 k j)) (fun j => x6 (ix1 j)) (fun k => x0 (ix3 b s k))
/-- The value row of token (b, s). -/
abbrev vRow (b : Fin 8) (s : Fin 2048) : Fin 1024 → EReal :=
  Attn.proj (fun k j => x1 (ix2 k j)) (fun j => x2 (ix1 j)) (fun k j => x7 (ix2 k j)) (fun j => x8 (ix1 j)) (fun k => x0 (ix3 b s k))

theorem q_at (b : Fin 8) (t : Fin 2048) (d : Fin 1024) :
    val_main_v9 (F := Ideal) x0 x1 x2 x3 x4 (ix3 b t d) = qRow x0 x1 x2 x3 x4 b t d := by
  rw [val_main_v9_apply, val_main_v8_apply, val_main_v5_apply, val_main_v7_apply, val_main_v6_apply]
  unfold qRow Attn.proj Attn.dense
  simp only [Ideal.hostUnary_tanh_def, Ideal.addf_def, lidx_v5, ridx_v5, idx_v7, hidden_at]

theorem k_at (b : Fin 8) (s : Fin 2048) (d : Fin 1024) :
    val_main_v14 (F := Ideal) x0 x1 x2 x5 x6 (ix3 b s d) = kRow x0 x1 x2 x5 x6 b s d := by
  rw [val_main_v14_apply, val_main_v13_apply, val_main_v10_apply, val_main_v12_apply, val_main_v11_apply]
  unfold kRow Attn.proj Attn.dense
  simp only [Ideal.hostUnary_tanh_def, Ideal.addf_def, lidx_v10, ridx_v10, idx_v12, hidden_at]

theorem v_at (b : Fin 8) (s : Fin 2048) (d : Fin 1024) :
    val_main_v19 (F := Ideal) x0 x1 x2 x7 x8 (ix3 b s d) = vRow x0 x1 x2 x7 x8 b s d := by
  rw [val_main_v19_apply, val_main_v18_apply, val_main_v15_apply, val_main_v17_apply, val_main_v16_apply]
  unfold vRow Attn.proj Attn.dense
  simp only [Ideal.hostUnary_tanh_def, Ideal.addf_def, lidx_v15, ridx_v15, idx_v17, hidden_at]

/-! ## The scores and their row maximum -/

/-- The scores of query (b, t) against the keys of batch b. -/
abbrev scRow (b : Fin 8) (t : Fin 2048) : Fin 2048 → EReal :=
  Attn.scores (qRow x0 x1 x2 x3 x4 b t) (fun s => kRow x0 x1 x2 x5 x6 b s)

theorem scores_at (b : Fin 8) (t s : Fin 2048) :
    val_main_v20 (F := Ideal) x0 x1 x2 x3 x4 x5 x6 (ix3 b t s) = scRow x0 x1 x2 x3 x4 x5 x6 b t s := by
  rw [val_main_v20_apply]
  unfold scRow Attn.scores
  simp only [lidx_v20, ridx_v20, q_at, k_at]

/-- The source index over (b, t) with coordinate k put back on the reduced (key) axis. -/
theorem lift_ix3 (h : S8x2048x2048.Reduces [2] S8x2048) (b : Fin 8) (t : Fin 2048) (k : Fin (S8x2048x2048.size 2)) :
    h.lift (ix2 b t) k = ix3 b t (⟨k.val, k.isLt⟩ : Fin 2048) :=
  funext fun a => Fin.ext (by match a with | ⟨0, _⟩ => rfl | ⟨1, _⟩ => rfl | ⟨2, _⟩ => rfl)

/-- The reference's row maximum: the fold of max from -∞ over the keys, and once more against -∞. -/
theorem rowMax_at (b : Fin 8) (t : Fin 2048) :
    val_main_v23 (F := Ideal) x0 x1 x2 x3 x4 x5 x6 (ix2 b t) = Attn.rowMax (scRow x0 x1 x2 x3 x4 x5 x6 b t) := by
  have h : S8x2048x2048.Reduces [2] S8x2048 := by decide
  rw [val_main_v23_apply, val_main_v22_apply, val_main_cst_0_apply]
  simp only [Ideal.maximumf_def, Ideal.ofBits_def]
  rw [max_negInf]
  unfold val_main_v21
  rw [Host.reduce_eq_fold_single FloatOps.maximumf _ _ reducesTo_S8x2048x2048_S8x2048_d2 h h_S_ (ix2 b t)]
  have hf : (val_main_v20 (F := Ideal) x0 x1 x2 x3 x4 x5 x6 ∘ h.lift (ix2 b t))
      = fun k : Fin (S8x2048x2048.size 2) => scRow x0 x1 x2 x3 x4 x5 x6 b t ⟨k.val, k.isLt⟩ :=
    funext fun k => (congrArg (val_main_v20 (F := Ideal) x0 x1 x2 x3 x4 x5 x6) (lift_ix3 h b t k)).trans
      (scores_at x0 x1 x2 x3 x4 x5 x6 b t ⟨k.val, k.isLt⟩)
  rw [hf]
  rfl

/-! ## The softmax -/

theorem expo_at (b : Fin 8) (t s : Fin 2048) :
    val_main_v27 (F := Ideal) x0 x1 x2 x3 x4 x5 x6 (ix3 b t s) = Attn.expo (scRow x0 x1 x2 x3 x4 x5 x6 b t) s := by
  rw [val_main_v27_apply, val_main_v26_apply, val_main_v25_apply, val_main_v24_apply]
  unfold Attn.expo
  simp only [Ideal.hostUnary_exp_def, Ideal.subf_def, idx_v25, scores_at, rowMax_at]

/-- The sum of the exponentials of row (b, t): the reference's sum starts from the f32 zero. -/
theorem sumExp_at (b : Fin 8) (t : Fin 2048) :
    val_main_v28 (F := Ideal) x0 x1 x2 x3 x4 x5 x6 (ix2 b t) = ∑ s : Fin 2048, Attn.expo (scRow x0 x1 x2 x3 x4 x5 x6 b t) s := by
  rw [val_main_v28_apply, val_main_cst_1_apply]
  simp only [Ideal.ofBits_def, idx_v28, expo_at]
  rw [Ideal.ofBits_zero_f32, zero_add]

theorem weights_at (b : Fin 8) (t s : Fin 2048) :
    val_main_v31 (F := Ideal) x0 x1 x2 x3 x4 x5 x6 (ix3 b t s) = Attn.weights (scRow x0 x1 x2 x3 x4 x5 x6 b t) s := by
  rw [val_main_v31_apply, val_main_v30_apply, val_main_v29_apply]
  unfold Attn.weights
  simp only [Ideal.hostDivf_def, idx_v30, expo_at, sumExp_at]

/-! ## The weighted sum of the value rows, and the last layer -/

theorem mix_at (b : Fin 8) (t : Fin 2048) (d : Fin 1024) :
    val_main_v32 (F := Ideal) x0 x1 x2 x3 x4 x5 x6 x7 x8 (ix3 b t d)
      = Attn.mix (qRow x0 x1 x2 x3 x4 b t) (fun s => kRow x0 x1 x2 x5 x6 b s) (fun s => vRow x0 x1 x2 x7 x8 b s) d := by
  rw [val_main_v32_apply]
  unfold Attn.mix
  simp only [lidx_v32, ridx_v32, weights_at, v_at]

theorem out_at (b : Fin 8) (t : Fin 2048) (j : Fin 1024) :
    val_main_v37 (F := Ideal) x0 x1 x2 x3 x4 x5 x6 x7 x8 x9 x10 (ix3 b t j)
      = Attn.attnRow (qRow x0 x1 x2 x3 x4 b t) (fun s => kRow x0 x1 x2 x5 x6 b s) (fun s => vRow x0 x1 x2 x7 x8 b s)
          (fun k j => x9 (ix2 k j)) (fun j => x10 (ix1 j)) j := by
  rw [val_main_v37_apply, val_main_v36_apply, val_main_v33_apply, val_main_v35_apply, val_main_v34_apply,
    val_main_call1_v0_apply, val_main_call1_cst_apply]
  unfold Attn.attnRow Attn.dense
  simp only [Ideal.maximumf_def, Ideal.addf_def, Ideal.ofBits_def, lidx_v33, ridx_v33, idx_v35, mix_at]

end Stages

theorem ref_eq (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal)) (x9 : (⟨S1024x1024, .f32⟩ : BufTy).Contents (Elt Ideal))
    (x10 : (⟨S1024, .f32⟩ : BufTy).Contents (Elt Ideal)) :
    val_main_v37 (F := Ideal) x0 x1 x2 x3 x4 x5 x6 x7 x8 x9 x10 = Cert.Attn.out x0 x1 x2 x3 x4 x5 x6 x7 x8 x9 x10 := by
  funext i
  obtain ⟨b, t, j, rfl⟩ : ∃ (b : Fin 8) (t : Fin 2048) (j : Fin 1024), i = ix3 b t j := ⟨i 0, i 1, i 2, eq_ix3 i⟩
  exact out_at x0 x1 x2 x3 x4 x5 x6 x7 x8 x9 x10 b t j

end Cert.RefBridge

end
-- ==== Proof.lean ====
/-
  A dense_transformer self-attention layer, fused into two kernel launches, against its plain jnp reference, as
  functions of the same eleven arguments on the extended reals.

  Both compute, for batch b, token t, feature j (Proof/Spec.lean, `Cert.Attn.outAt`):
    hs   = relu (x · W0 + b0)                                  one row per token,
    q, k, v = tanh (hs · W + b)                                one row per token,
    a    = softmax over the 2048 keys s of batch b of  q_t · k_s   (exp (score − row maximum) over their sum),
    out  = relu ((Σ_s a_s · v_s) · W1 + b1).
  The kernel tiles the rows (512 at a time), changes float format on the way (the identity on extended reals),
  flattens and regroups the token axis between its two launches, and takes the row maximum and the row sums lane
  by lane; the reference works on whole arrays and takes one more maximum with −∞. None of this changes a value:
  sums are re-indexed, never re-associated across an infinity, and no finiteness of the inputs is used.

  The kernel's side: the generated frames give both frame claims; the launch theorem called once more with the
  result array named (Proof/KernelRun.lean), each launch's output arrays as functions of its input arrays
  (Proof/Region0Arr.lean, Proof/Region1Arr.lean over Proof/DenseAt.lean), the host operations between them
  (Proof/HostGlue.lean) and the composition (Proof/Glue.lean). The reference's side: its generated run, read one
  operation at a time (Proof/RefValue.lean).
-/
import proofs.«410532_j19078244729546_3_alg».proof.Defs
import proofs.«410532_j19078244729546_3_alg».proof.Proof.Gen.Kernel
import proofs.«410532_j19078244729546_3_alg».proof.Proof.Gen.Kernel.Skeleton
import proofs.«410532_j19078244729546_3_alg».proof.Proof.Gen.Kernel.Launch
import proofs.«410532_j19078244729546_3_alg».proof.Proof.Gen.Kernel.Points
import proofs.«410532_j19078244729546_3_alg».proof.Proof.Gen.Kernel.Frame
import proofs.«410532_j19078244729546_3_alg».proof.Proof.Gen.KernelIdeal
import proofs.«410532_j19078244729546_3_alg».proof.Proof.Gen.KernelIdeal.Skeleton
import proofs.«410532_j19078244729546_3_alg».proof.Proof.Gen.KernelIdeal.Launch
import proofs.«410532_j19078244729546_3_alg».proof.Proof.Gen.KernelIdeal.Points
import proofs.«410532_j19078244729546_3_alg».proof.Proof.Gen.KernelIdeal.Frame
import proofs.«410532_j19078244729546_3_alg».proof.Proof.Gen.ReferenceIdeal
import proofs.«410532_j19078244729546_3_alg».proof.Proof.Gen.ReferenceIdeal.Run
import proofs.«410532_j19078244729546_3_alg».proof.Proof.Gen.ReferenceIdeal.Read
import proofs.«410532_j19078244729546_3_alg».proof.Proof.Gen.Pre_finite_inputs
import proofs.«410532_j19078244729546_3_alg».proof.Proof.KernelRun
import proofs.«410532_j19078244729546_3_alg».proof.Proof.HostGlue
import proofs.«410532_j19078244729546_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched: the generated frame. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments as launched: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with their result array at the layer `Cert.Attn.out` of the (agreeing) arguments. -/
theorem algebraic : Cert.algebraic_KernelIdeal_ReferenceIdeal := by
  intro m ρ m' ρ' _ hagree
  refine ⟨fun c => Cert.Attn.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.HostV.result_eq m ρ c), (h c).2⟩)
      (Cert.KernelIdeal.RunV.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v37_eq, Cert.RefBridge.ref_eq]
    obtain ⟨e0, e1, e2, e3, e4, e5, e6, e7, e8, e9, e10⟩ := hagree c
    rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
